-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1024 : Shape := ⟨2, ![262144, 1024]⟩
abbrev S262144 : Shape := ⟨1, ![262144]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S262144x1024 : S_.BroadcastsInDim S262144x1024 (![] : Fin 0 → Fin S262144x1024.rank)
  reducesTo_S262144x1024_S_d0_1 : S262144x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S512x2 1) : IVec S_ 1 :=
  let main_c_5 : IVec S_ 1 := constantI S_ 1 1#1
  let main_v17 : IVec S_ 1 := (fun x v => Host.reduce IntOp.andi x v reducesTo_S512x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S262144x1024 .f32) (main_arg1 : IVec S262144 32) (main_arg2 : FVec F S1024x512 .f32) (main_arg3 : FVec F S512 .f32) (main_arg4 : FVec F S512x2 .f32) (main_arg5 : FVec F S2 .f32) : IVec S_ 1 :=
  let main_v0 : FVec F S262144x1024 .f32 := Host.absf main_arg0
  let main_cst : FVec F S_ .f32 := constant S_ .f32 0x7F800000#32
  let main_v1 : FVec F S262144x1024 .f32 := broadcastInDim S262144x1024 ![] bcast_S_S262144x1024 main_cst
  let main_v2 : IVec S262144x1024 1 := cmpf .olt main_v0 main_v1
  let main_c : IVec S_ 1 := constantI S_ 1 1#1
  let main_v3 : IVec S_ 1 := (fun x v => Host.reduce IntOp.andi x v reducesTo_S262144x1024_S_d0_1 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x2 .f32 := Host.absf main_arg4
  let main_cst_4 : FVec F S_ .f32 := constant S_ .f32 0x7F800000#32
  let main_v15 : FVec F S512x2 .f32 := broadcastInDim S512x2 ![] bcast_S_S512x2 main_cst_4
  let main_v16 : IVec S512x2 1 := cmpf .olt main_v14 main_v15
  fn_part1 (F := F) main_arg5 main_v13 main_v16
-- ==== Kernel.lean ====
abbrev S262144x1024 : Shape := ⟨2, ![262144, 1024]⟩
abbrev S262144 : Shape := ⟨1, ![262144]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S1x262144 : Shape := ⟨2, ![1, 262144]⟩
abbrev S1x512 : Shape := ⟨2, ![1, 512]⟩
abbrev S2x512x512 : Shape := ⟨3, ![2, 512, 512]⟩
abbrev S2x512x1 : Shape := ⟨3, ![2, 512, 1]⟩
abbrev S2048x1024 : Shape := ⟨2, ![2048, 1024]⟩
abbrev S1x2048 : Shape := ⟨2, ![1, 2048]⟩
abbrev S1x512x512 : Shape := ⟨3, ![1, 512, 512]⟩
abbrev S1x512x1 : Shape := ⟨3, ![1, 512, 1]⟩
abbrev S512x512 : Shape := ⟨2, ![512, 512]⟩
abbrev S512x1 : Shape := ⟨2, ![512, 1]⟩
abbrev S2048x512 : Shape := ⟨2, ![2048, 512]⟩
abbrev S512x2048 : Shape := ⟨2, ![512, 2048]⟩
abbrev S_ : Shape := ⟨0, ![]⟩
abbrev S1x2 : Shape := ⟨2, ![1, 2]⟩

abbrev nBuf : Space → Nat
  | .hbm => 21
  | .vmem => 12
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S1024x512, .f32⟩
  | .hbm, ⟨3, _⟩ => ⟨S512, .f32⟩
  | .hbm, ⟨4, _⟩ => ⟨S512x2, .f32⟩
  | .hbm, ⟨5, _⟩ => ⟨S2, .f32⟩
  | .hbm, ⟨6, _⟩ => ⟨S1x262144, .i32⟩
  | .hbm, ⟨7, _⟩ => ⟨S1024x512, .bf16⟩
  | .hbm, ⟨8, _⟩ => ⟨S1x512, .f32⟩
  | .hbm, ⟨9, _⟩ => ⟨S2x512x512, .f32⟩
  | .hbm, ⟨10, _⟩ => ⟨S2x512x1, .f32⟩
  | .hbm, ⟨11, _⟩ => ⟨S_, .f32⟩
  | .hbm, ⟨12, _⟩ => ⟨S512x512, .f32⟩
  | .hbm, ⟨13, _⟩ => ⟨S_, .f32⟩
  | .hbm, ⟨14, _⟩ => ⟨S512x1, .f32⟩
  | .hbm, ⟨15, _⟩ => ⟨S512x512, .f32⟩
  | .hbm, ⟨16, _⟩ => ⟨S512x512, .f32⟩
  | .hbm, ⟨17, _⟩ => ⟨S512x2, .f32⟩
  | .hbm, ⟨18, _⟩ => ⟨S1x2, .f32⟩
  | .hbm, ⟨19, _⟩ => ⟨S512x2, .f32⟩
  | .hbm, ⟨20, _⟩ => ⟨S512x2, .f32⟩
  | .local _ .vmem, ⟨0, _⟩ => ⟨S2048x1024, .f32⟩
  | .local _ .vmem, ⟨1, _⟩ => ⟨S2048x1024, .f32⟩
  | .local _ .vmem, ⟨2, _⟩ => ⟨S1x2048, .i32⟩
  | .local _ .vmem, ⟨3, _⟩ => ⟨S1x2048, .i32⟩
  | .local _ .vmem, ⟨4, _⟩ => ⟨S1024x512, .bf16⟩
  | .local _ .vmem, ⟨5, _⟩ => ⟨S1x512, .f32⟩
  | .local _ .vmem, ⟨6, _⟩ => ⟨S1x512x512, .f32⟩
  | .local _ .vmem, ⟨7, _⟩ => ⟨S1x512x512, .f32⟩
  | .local _ .vmem, ⟨8, _⟩ => ⟨S1x512x1, .f32⟩
  | .local _ .vmem, ⟨9, _⟩ => ⟨S1x512x1, .f32⟩
  | .local _ .vmem, ⟨10, _⟩ => ⟨S512x512, .f32⟩
  | .local _ .vmem, ⟨11, _⟩ => ⟨S512x1, .f32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v36 : BitVec 1 := Scalar.cmpi .eq arg1 c63_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S262144_S1x262144 : S262144.ShapeCasts S1x262144
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S512x2048_d0_w32 : S512x2048.Iotas .tc 32 [0]
  broadcasts_S1x2048_S512x2048 : S1x2048.Broadcasts S512x2048
  natLt_1_32 : 1 < 32
  reduces_S512x2048_S512 : S512x2048.Reduces [1] S512
  shapeCasts_S512_S512x1 : S512.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S2x512x512_S512x512_d0 : S2x512x512.ReducesTo [0] S512x512
  h_S_ : 0 < S_.numel
  reducesTo_S2x512x1_S512x1_d0 : S2x512x1.ReducesTo [0] S512x1
  bcast_S512x1_S512x512_0_1 : S512x1.BroadcastsInDim S512x512 (![0, 1] : Fin 2 → Fin S512x512.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S2048x1024_S1024x512_S2048x512_1_0_0_1_n_n_wf : DotDims.WF S2048x1024 S1024x512 S2048x512 [1] [0] [0] [1] [] []
  dot_S512x2048_S2048x512_S512x512_1_0_0_1_n_n_wf : DotDims.WF S512x2048 S2048x512 S512x512 [1] [0] [0] [1] [] []
  dot_S512x512_S512x2_S512x2_1_0_0_1_n_n_wf : DotDims.WF S512x512 S512x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S262144x1024.size a
  hwx0_0 : ∀ i : grid0.Coords, EltTy.bits .f32 = 32 ∨ (Rect.block (s := S262144x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x262144.size a
  hwx0_1 : ∀ i : grid0.Coords, EltTy.bits .i32 = 32 ∨ (Rect.block (s := S1x262144) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S2x512x512.size a
  hwx0_4 : ∀ i : grid0.Coords, EltTy.bits .f32 = 32 ∨ (Rect.block (s := S2x512x512) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S2x512x1.size a
  hwx0_5 : ∀ i : grid0.Coords, EltTy.bits .f32 = 32 ∨ (Rect.block (s := S2x512x1) S1x512x1.size (cc0_transform_5 i) (hinb0_5 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2_S512x2_1_0_0_1_n_n : DotDims S512x512 S512x2 S512x2 where
  lhsContracting := [1]
  rhsContracting := [0]
  lhsNonContracting := [0]
  rhsNonContracting := [1]
  lhsBatch := []
  rhsBatch := []
  wf := dot_S512x512_S512x2_S512x2_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S262144x1024 : Shape := ⟨2, ![262144, 1024]⟩
abbrev S262144 : Shape := ⟨1, ![262144]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S262144x512 : Shape := ⟨2, ![262144, 512]⟩
abbrev S1x512 : Shape := ⟨2, ![1, 512]⟩
abbrev S_ : Shape := ⟨0, ![]⟩
abbrev S512x512 : Shape := ⟨2, ![512, 512]⟩
abbrev S262144x1 : Shape := ⟨2, ![262144, 1]⟩
abbrev S512x1 : Shape := ⟨2, ![512, 1]⟩
abbrev S1x2 : Shape := ⟨2, ![1, 2]⟩

abbrev nBuf : Space → Nat
  | .hbm => 30
  | .vmem => 0
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S1024x512, .f32⟩
  | .hbm, ⟨3, _⟩ => ⟨S512, .f32⟩
  | .hbm, ⟨4, _⟩ => ⟨S512x2, .f32⟩
  | .hbm, ⟨5, _⟩ => ⟨S2, .f32⟩
  | .hbm, ⟨6, _⟩ => ⟨S262144x512, .f32⟩
  | .hbm, ⟨7, _⟩ => ⟨S1x512, .f32⟩
  | .hbm, ⟨8, _⟩ => ⟨S262144x512, .f32⟩
  | .hbm, ⟨9, _⟩ => ⟨S262144x512, .f32⟩
  | .hbm, ⟨10, _⟩ => ⟨S_, .f32⟩
  | .hbm, ⟨11, _⟩ => ⟨S262144x512, .f32⟩
  | .hbm, ⟨12, _⟩ => ⟨S262144x512, .f32⟩
  | .hbm, ⟨13, _⟩ => ⟨S_, .f32⟩
  | .hbm, ⟨14, _⟩ => ⟨S512x512, .f32⟩
  | .hbm, ⟨15, _⟩ => ⟨S262144x1, .i32⟩
  | .hbm, ⟨16, _⟩ => ⟨S512x512, .f32⟩
  | .hbm, ⟨17, _⟩ => ⟨S_, .f32⟩
  | .hbm, ⟨18, _⟩ => ⟨S262144, .f32⟩
  | .hbm, ⟨19, _⟩ => ⟨S_, .f32⟩
  | .hbm, ⟨20, _⟩ => ⟨S512, .f32⟩
  | .hbm, ⟨21, _⟩ => ⟨S262144x1, .i32⟩
  | .hbm, ⟨22, _⟩ => ⟨S512, .f32⟩
  | .hbm, ⟨23, _⟩ => ⟨S512x1, .f32⟩
  | .hbm, ⟨24, _⟩ => ⟨S512x512, .f32⟩
  | .hbm, ⟨25, _⟩ => ⟨S512x512, .f32⟩
  | .hbm, ⟨26, _⟩ => ⟨S512x2, .f32⟩
  | .hbm, ⟨27, _⟩ => ⟨S1x2, .f32⟩
  | .hbm, ⟨28, _⟩ => ⟨S512x2, .f32⟩
  | .hbm, ⟨29, _⟩ => ⟨S512x2, .f32⟩
  | _, _ => ⟨S262144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S_S512x512 : S_.BroadcastsInDim S512x512 (![] : Fin 0 → Fin S512x512.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S262144x1024_S1024x512_S262144x512_1_0_0_1_n_n_wf : DotDims.WF S262144x1024 S1024x512 S262144x512 [1] [0] [0] [1] [] []
  scatter_S512x512_S262144x1_S262144x512_1_0_0_1_wf : ScatterDims.WF S512x512 S262144x1 S262144x512 [1] [0] [0] 1
  scatter_S512_S262144x1_S262144_n_0_0_1_wf : ScatterDims.WF S512 S262144x1 S262144 [] [0] [0] 1
  dot_S512x512_S512x2_S512x2_1_0_0_1_n_n_wf : DotDims.WF S512x512 S512x2 S512x2 [1] [0] [0] [1] [] []

variable [Facts₀]

def dot_S262144x1024_S1024x512_S262144x512_1_0_0_1_n_n : DotDims S262144x1024 S1024x512 S262144x512 where
  lhsContracting := [1]
  rhsContracting := [0]
  lhsNonContracting := [0]
  rhsNonContracting := [1]
  lhsBatch := []
  rhsBatch := []
  wf := dot_S262144x1024_S1024x512_S262144x512_1_0_0_1_n_n_wf
def scatter_S512x512_S262144x1_S262144x512_1_0_0_1 : ScatterDims S512x512 S262144x1 S262144x512 where
  updateWindowDims := [1]
  insertedWindowDims := [0]
  scatterDimsToOperandDims := [0]
  indexVectorDim := 1
  wf := scatter_S512x512_S262144x1_S262144x512_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf
def dot_S512x512_S512x2_S512x2_1_0_0_1_n_n : DotDims S512x512 S512x2 S512x2 where
  lhsContracting := [1]
  rhsContracting := [0]
  lhsNonContracting := [0]
  rhsNonContracting := [1]
  lhsBatch := []
  rhsBatch := []
  wf := dot_S512x512_S512x2_S512x2_1_0_0_1_n_n_wf

class Facts : Prop extends Facts₀ where

variable [Facts]
-- ==== Proof.Pieces.lean ====
/-
  What each kind of grid point leaves behind, as values.

  The kernel walks 2 halves × 64 tiles.  It keeps two accumulators across the tiles of a half: a 512 × 512 block of
  per-segment sums and a 512 × 1 column of per-segment counts.  At a half's first tile both are reset to zero and
  then updated by the tile; at every later tile they are updated from what the tile before left; at the half's
  last tile the updated accumulators are also copied to the half's output blocks.  Each lemma below says that the
  contents a point leaves in an accumulator or an output block are that update, as one pure function of the
  tile's input blocks and of the accumulator's earlier contents.
-/
import proofs.«422706_j6803228197419_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a half's first tile the sums scratch is reset and then updated: it ends at the update of the zero block. -/
theorem sA0 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : cond0_0 i) (hc1 : ¬cond0_1 i) (x0 : Vec F S2048x1024 .f32) (x1 : Vec F S1x2048 .i32) (x2 : Vec F S1024x512 .bf16) (x3 : Vec F S1x512 .f32) :
    sout0_A_0 c i arg2 harg2 arg3 harg3 arg4 harg4 arg5 harg5 arg6 harg6 arg7 harg7 arg8 harg8 arg9 harg9 hc0 hc1 x0 x1 x2 x3 = k0_pay7 x0 x2 x3 x1 k0_pay4 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x512) hz2, View.readCov_unit_zero (S := S512x512) _ hz2]
  simp only [View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

/-- At a half's first tile the counts scratch is reset and then updated: it ends at the update of the zero column. -/
theorem sA1 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : cond0_0 i) (hc1 : ¬cond0_1 i) (x0 : Vec F S2048x1024 .f32) (x1 : Vec F S1x2048 .i32) (x2 : Vec F S1024x512 .bf16) (x3 : Vec F S1x512 .f32) :
    sout0_A_1 c i arg2 harg2 arg3 harg3 arg4 harg4 arg5 harg5 arg6 harg6 arg7 harg7 arg8 harg8 arg9 harg9 hc0 hc1 x0 x1 x2 x3 = k0_pay1 (k0_pay8 x1 k0_pay5) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

/-- At a middle tile the sums scratch ends at the update of what the tile before left. -/
theorem sB0 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : ¬cond0_0 i) (hc1 : ¬cond0_1 i) (x0 : Vec F S2048x1024 .f32) (x1 : Vec F S1x2048 .i32) (x2 : Vec F S1024x512 .bf16) (x3 : Vec F S1x512 .f32) (xs0 : Vec F S512x512 .f32) (xs1 : Vec F S512x1 .f32) :
    sout0_B_0 c i arg2 harg2 arg3 harg3 arg4 harg4 arg5 harg5 arg6 harg6 arg7 harg7 arg8 harg8 arg9 harg9 hc0 hc1 x0 x1 x2 x3 xs0 xs1 = k0_pay7 x0 x2 x3 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

/-- At a middle tile the counts scratch ends at the update of what the tile before left. -/
theorem sB1 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : ¬cond0_0 i) (hc1 : ¬cond0_1 i) (x0 : Vec F S2048x1024 .f32) (x1 : Vec F S1x2048 .i32) (x2 : Vec F S1024x512 .bf16) (x3 : Vec F S1x512 .f32) (xs0 : Vec F S512x512 .f32) (xs1 : Vec F S512x1 .f32) :
    sout0_B_1 c i arg2 harg2 arg3 harg3 arg4 harg4 arg5 harg5 arg6 harg6 arg7 harg7 arg8 harg8 arg9 harg9 hc0 hc1 x0 x1 x2 x3 xs0 xs1 = k0_pay1 (k0_pay8 x1 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

/-- At a half's last tile the sums scratch is updated as at a middle tile. -/
theorem sC0 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : ¬cond0_0 i) (hc1 : cond0_1 i) (x0 : Vec F S2048x1024 .f32) (x1 : Vec F S1x2048 .i32) (x2 : Vec F S1024x512 .bf16) (x3 : Vec F S1x512 .f32) (xs0 : Vec F S512x512 .f32) (xs1 : Vec F S512x1 .f32) :
    sout0_C_0 c i arg2 harg2 arg3 harg3 arg4 harg4 arg5 harg5 arg6 harg6 arg7 harg7 arg8 harg8 arg9 harg9 hc0 hc1 x0 x1 x2 x3 xs0 xs1 = k0_pay7 x0 x2 x3 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

/-- At a half's last tile the counts scratch is updated as at a middle tile. -/
theorem sC1 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : ¬cond0_0 i) (hc1 : cond0_1 i) (x0 : Vec F S2048x1024 .f32) (x1 : Vec F S1x2048 .i32) (x2 : Vec F S1024x512 .bf16) (x3 : Vec F S1x512 .f32) (xs0 : Vec F S512x512 .f32) (xs1 : Vec F S512x1 .f32) :
    sout0_C_1 c i arg2 harg2 arg3 harg3 arg4 harg4 arg5 harg5 arg6 harg6 arg7 harg7 arg8 harg8 arg9 harg9 hc0 hc1 x0 x1 x2 x3 xs0 xs1 = k0_pay1 (k0_pay8 x1 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

/-- At a half's last tile the sums output block is the updated sums scratch, laid out with a leading unit axis. -/
theorem oC4 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : ¬cond0_0 i) (hc1 : cond0_1 i) (x0 : Vec F S2048x1024 .f32) (x1 : Vec F S1x2048 .i32) (x2 : Vec F S1024x512 .bf16) (x3 : Vec F S1x512 .f32) (xs0 : Vec F S512x512 .f32) (xs1 : Vec F S512x1 .f32) :
    out0_C_4 c i arg2 harg2 arg3 harg3 arg4 harg4 arg5 harg5 arg6 harg6 arg7 harg7 arg8 harg8 arg9 harg9 hc0 hc1 x0 x1 x2 x3 xs0 xs1 = k0_pay2 (k0_pay7 x0 x2 x3 x1 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readCov_unit_zero (S := S512x512) _ hz2, View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

/-- At a half's last tile the counts output block is the updated counts scratch, laid out with a leading unit axis. -/
theorem oC5 (c : Dev nD) (i : grid0.Coords) (arg2 : Memref sig .tc .vmem S2048x1024 .f32) (harg2 : arg2.IsWhole) (arg3 : Memref sig .tc .vmem S1x2048 .i32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S1x512x1 .f32) (harg7 : arg7.IsWhole) (arg8 : Memref sig .tc .vmem S512x512 .f32) (harg8 : arg8.IsWhole) (arg9 : Memref sig .tc .vmem S512x1 .f32) (harg9 : arg9.IsWhole) (hc0 : ¬cond0_0 i) (hc1 : cond0_1 i) (x0 : Vec F S2048x1024 .f32) (x1 : Vec F S1x2048 .i32) (x2 : Vec F S1024x512 .bf16) (x3 : Vec F S1x512 .f32) (xs0 : Vec F S512x512 .f32) (xs1 : Vec F S512x1 .f32) :
    out0_C_5 c i arg2 harg2 arg3 harg3 arg4 harg4 arg5 harg5 arg6 harg6 arg7 harg7 arg8 harg8 arg9 harg9 hc0 hc1 x0 x1 x2 x3 xs0 xs1 = k0_pay3 (k0_pay1 (k0_pay8 x1 xs1)) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz3]
  simp only [View.readCov_unit_zero (S := S512x1) _ hz2, View.readAt_eq_ld, harg2.read_unread, harg3.read_unread, harg4.read_unread, harg5.read_unread, harg8.read_unread, harg9.read_unread, View.ld_unit_zero (S := S2048x1024) hz2, View.ld_unit_zero (S := S1x2048) hz2, View.ld_unit_zero (S := S1024x512) hz2, View.ld_unit_zero (S := S1x512) hz2, View.ld_unit_zero (S := S512x512) hz2, View.ld_unit_zero (S := S512x1) hz2]

end Cert.KernelIdeal.Pieces

end
-- ==== Proof.Accum.lean ====
/-
  The accumulators after every grid point, and the output blocks a half's last point writes back.

  After the first tile of a half the sums accumulator holds the tile's update of the zero block; after every later
  tile the tile's update of what the tile before left; the counts accumulator likewise.  At the last tile of a
  half the two output blocks hold the accumulators just updated.
-/
import proofs.«422706_j6803228197419_1_alg».proof.Proof.Pieces

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (m : (ℓ : Loc nD τ sig) → Buf (Elt F) ℓ)

/-- The sums accumulator after a half's first tile: the tile's update of the zero block. -/
theorem sums_first (c : Dev nD) (t : Fin cfg0.N) (h0 : t.val % 64 = 0) :
    (outsAt0 m c t.val t.isLt).2.2.1 = k0_pay7 (iblk m c 0 t) (iblk m c 2 t) (iblk m c 3 t) (iblk m c 1 t) k0_pay4 := by
  have h1 : ¬t.val % 64 = 63 := by omega
  rw [outsAt0_A m c t h0 h1]
  dsimp only
  exact Pieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- The counts accumulator after a half's first tile: the tile's update of the zero column. -/
theorem counts_first (c : Dev nD) (t : Fin cfg0.N) (h0 : t.val % 64 = 0) :
    (outsAt0 m c t.val t.isLt).2.2.2 = k0_pay1 (k0_pay8 (iblk m c 1 t) k0_pay5) := by
  have h1 : ¬t.val % 64 = 63 := by omega
  rw [outsAt0_A m c t h0 h1]
  dsimp only
  exact Pieces.sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

/-- The sums accumulator after a later tile: the tile's update of what the tile before left. -/
theorem sums_next (c : Dev nD) (t : Fin cfg0.N) (h0 : ¬t.val % 64 = 0) :
    (outsAt0 m c t.val t.isLt).2.2.1 = k0_pay7 (iblk m c 0 t) (iblk m c 2 t) (iblk m c 3 t) (iblk m c 1 t) (outsAt0 m c (t.val - 1) (Nat.lt_of_le_of_lt (Nat.sub_le _ _) t.isLt)).2.2.1 := by
  by_cases h1 : t.val % 64 = 63
  · rw [outsAt0_C m c t h0 h1]
    dsimp only
    exact Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Pieces.sB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The counts accumulator after a later tile: the tile's update of what the tile before left. -/
theorem counts_next (c : Dev nD) (t : Fin cfg0.N) (h0 : ¬t.val % 64 = 0) :
    (outsAt0 m c t.val t.isLt).2.2.2 = k0_pay1 (k0_pay8 (iblk m c 1 t) (outsAt0 m c (t.val - 1) (Nat.lt_of_le_of_lt (Nat.sub_le _ _) t.isLt)).2.2.2) := by
  by_cases h1 : t.val % 64 = 63
  · rw [outsAt0_C m c t h0 h1]
    dsimp only
    exact Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Pieces.sB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The sums output block at a half's last tile: the accumulator just updated, under a leading unit axis. -/
theorem sums_out (c : Dev nD) (t : Fin cfg0.N) (h1 : t.val % 64 = 63) :
    (outsAt0 m c t.val t.isLt).1 = k0_pay2 (outsAt0 m c t.val t.isLt).2.2.1 := by
  have h0 : ¬t.val % 64 = 0 := by omega
  rw [outsAt0_C m c t h0 h1]
  dsimp only
  rw [Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact Pieces.oC4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The counts output block at a half's last tile: the accumulator just updated, under a leading unit axis. -/
theorem counts_out (c : Dev nD) (t : Fin cfg0.N) (h1 : t.val % 64 = 63) :
    (outsAt0 m c t.val t.isLt).2.1 = k0_pay3 (outsAt0 m c t.val t.isLt).2.2.2 := by
  have h0 : ¬t.val % 64 = 0 := by omega
  rw [outsAt0_C m c t h0 h1]
  dsimp only
  rw [Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact Pieces.oC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Accum

end
-- ==== Proof.Outputs.lean ====
/-
  The two output arrays after the run.

  The sums output has one 512 × 512 block per half and the counts output one 512 × 1 block per half.  A half's
  block is written back once, after the half's last tile, and holds the accumulator as that tile leaves it.  The
  two write-backs cover each array, so the arrays end holding, at `(q, b, j)`, the accumulators of half `q` after
  its last tile at `(b, j)`.
-/
import proofs.«422706_j6803228197419_1_alg».proof.Proof.Accum
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Outputs

open Cert.KernelIdeal Cert.KernelIdeal.Gen

variable {F : FTy → Type} [FloatOps F]
variable (m : (ℓ : Loc nD τ sig) → Buf (Elt F) ℓ)

/-- The last point of half `q` is a point of the grid. -/
theorem last_lt (q : Fin 2) : 64 * q.val + 63 < cfg0.N := by
  have := q.isLt
  rw [show cfg0.N = 128 from N_0]
  omega

/-- The last point of half `q`. -/
def lastPt (q : Fin 2) : Fin cfg0.N := ⟨64 * q.val + 63, last_lt q⟩

theorem lastPt_val (q : Fin 2) : (lastPt q).val = 64 * q.val + 63 := rfl

/-- The contents after a point depend on the point's number only, not on the proof of its bound. -/
theorem outsAt0_congr (c : Dev nD) (n n' : ℕ) (h : n < cfg0.N) (h' : n' < cfg0.N) (e : n = n') :
    outsAt0 m c n h = outsAt0 m c n' h' := by
  subst e
  rfl

/-- The sums accumulator when half `q` ends. -/
def sumsHalf (c : Dev nD) (q : Fin 2) : Vec F S512x512 .f32 := (outsAt0 m c (64 * q.val + 63) (last_lt q)).2.2.1

/-- The counts accumulator when half `q` ends. -/
def countsHalf (c : Dev nD) (q : Fin 2) : Vec F S512x1 .f32 := (outsAt0 m c (64 * q.val + 63) (last_lt q)).2.2.2

/-- The sums output array: half `q`'s block is the sums accumulator when that half ends. -/
def sumsArr (c : Dev nD) : Vec F S2x512x512 .f32 := fun i => sumsHalf m c (i 0) (ix2 (i 1) (i 2))

/-- The counts output array: half `q`'s block is the counts accumulator when that half ends. -/
def countsArr (c : Dev nD) : Vec F S2x512x1 .f32 := fun i => countsHalf m c (i 0) (ix2 (i 1) (i 2))

/-- The printed index map of output window 4, decided over the grid: the block of point `t` is half `t / 64`. -/
theorem idx_facts4 : ∀ t : Fin cfg0.N, win0_4.index t (0 : Fin 3) = t.val / 64 ∧ win0_4.index t (1 : Fin 3) = 0
    ∧ win0_4.index t (2 : Fin 3) = 0 :=
  (by decide +kernel : ∀ t : Fin grid0.N, _)

/-- What a half's last point writes back is the half's block of `sumsArr`: the accumulator just updated, row `b` and
    column `j` of it at position `(0, b, j)` of the block, which is position `(t / 64, b, j)` of the array. -/
theorem flushed4_eq (c : Dev nD) (t : Fin cfg0.N) (hf : (cfg0.win 4).flush t = true) :
    (dats m 0 c).flushed 4 t = ((cfg0.win 4).blk t).view.read (Elt F) (sumsArr m c) := by
  have h63 : t.val % 64 = 63 := (flush0_4 t).mp hf
  obtain ⟨e0, e1, e2⟩ := idx_facts4 t
  show (cfg0.win 4).cut (grid0.coords t) ((dats m 0 c).after 4 t) = _
  rw [after0_4, Accum.sums_out m c t h63]
  funext y
  show k0_pay2 (outsAt0 m c t.val t.isLt).2.2.1 y = sumsArr m c (((cfg0.win 4).blk t).view.emb y)
  have hy0 : (y 0).val < 1 := (y 0).isLt
  have hy1 : (y 1).val < 512 := (y 1).isLt
  have hy2 : (y 2).val < 512 := (y 2).isLt
  have k0 : ((((cfg0.win 4).blk t).view.emb y) 0).val = t.val / 64 := by
    show win0_4.index t (0 : Fin 3) * 1 + 1 * (y 0).val = _
    omega
  have k1 : ((((cfg0.win 4).blk t).view.emb y) 1).val = (y 1).val := by
    show win0_4.index t (1 : Fin 3) * 512 + 1 * (y 1).val = _
    omega
  have k2 : ((((cfg0.win 4).blk t).view.emb y) 2).val = (y 2).val := by
    show win0_4.index t (2 : Fin 3) * 512 + 1 * (y 2).val = _
    omega
  unfold k0_pay2
  refine (shapeCast_addUnit_apply (n := 2) ![512, 512] _ _ y).trans ?_
  unfold sumsArr sumsHalf
  have hn : 64 * ((((cfg0.win 4).blk t).view.emb y) 0).val + 63 = t.val := by rw [k0]; omega
  rw [outsAt0_congr m c _ t.val _ t.isLt hn]
  refine congrArg _ ?_
  funext a
  apply Fin.ext
  match a with
  | ⟨0, _⟩ => exact k1.symm
  | ⟨1, _⟩ => exact k2.symm

/-- An index of the array lies in point `t`'s block iff each coordinate lies in the block's range on its axis. -/
theorem mem_blk4 (t : Fin cfg0.N) (i : S2x512x512.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v3_0).slice (win0_4.rect t)).set ↔ _
  rw [View.set_slice_whole, Rect.mem_set_unit]
  exact Iff.rfl

/-- The two halves' last points cover the array, so after the run it holds `sumsArr`. -/
theorem final4 (c : Dev nD) : (dats m 0 c).arrAt 4 cfg0.N = sumsArr m c :=
  (dats m 0 c).arrAt_eq_of_cover 4 (sumsArr m c) (flushed4_eq m c) fun i => by
    have hi0 : (i 0).val < 2 := (i 0).isLt
    have hi1 : (i 1).val < 512 := (i 1).isLt
    have hi2 : (i 2).val < 512 := (i 2).isLt
    refine ⟨lastPt ⟨(i 0).val, hi0⟩, (flush0_4 _).mpr (by rw [lastPt_val]; dsimp only; omega), ?_⟩
    rw [mem_blk4]
    obtain ⟨e0, e1, e2⟩ := idx_facts4 (lastPt ⟨(i 0).val, hi0⟩)
    have e0' : win0_4.index (lastPt ⟨(i 0).val, hi0⟩) (0 : Fin 3) = (i 0).val := by rw [e0, lastPt_val]; dsimp only; omega
    intro a
    match a with
    | ⟨0, _⟩ =>
      show win0_4.index _ (0 : Fin 3) * 1 ≤ (i 0).val ∧ (i 0).val < win0_4.index _ (0 : Fin 3) * 1 + 1
      rw [e0']; omega
    | ⟨1, _⟩ =>
      show win0_4.index _ (1 : Fin 3) * 512 ≤ (i 1).val ∧ (i 1).val < win0_4.index _ (1 : Fin 3) * 512 + 512
      rw [e1]; omega
    | ⟨2, _⟩ =>
      show win0_4.index _ (2 : Fin 3) * 512 ≤ (i 2).val ∧ (i 2).val < win0_4.index _ (2 : Fin 3) * 512 + 512
      rw [e2]; omega

/-- The printed index map of output window 5, decided over the grid: the block of point `t` is half `t / 64`. -/
theorem idx_facts5 : ∀ t : Fin cfg0.N, win0_5.index t (0 : Fin 3) = t.val / 64 ∧ win0_5.index t (1 : Fin 3) = 0
    ∧ win0_5.index t (2 : Fin 3) = 0 :=
  (by decide +kernel : ∀ t : Fin grid0.N, _)

/-- What a half's last point writes back is the half's block of `countsArr`: the accumulator just updated, row `b` and
    column `j` of it at position `(0, b, j)` of the block, which is position `(t / 64, b, j)` of the array. -/
theorem flushed5_eq (c : Dev nD) (t : Fin cfg0.N) (hf : (cfg0.win 5).flush t = true) :
    (dats m 0 c).flushed 5 t = ((cfg0.win 5).blk t).view.read (Elt F) (countsArr m c) := by
  have h63 : t.val % 64 = 63 := (flush0_5 t).mp hf
  obtain ⟨e0, e1, e2⟩ := idx_facts5 t
  show (cfg0.win 5).cut (grid0.coords t) ((dats m 0 c).after 5 t) = _
  rw [after0_5, Accum.counts_out m c t h63]
  funext y
  show k0_pay3 (outsAt0 m c t.val t.isLt).2.2.2 y = countsArr m c (((cfg0.win 5).blk t).view.emb y)
  have hy0 : (y 0).val < 1 := (y 0).isLt
  have hy1 : (y 1).val < 512 := (y 1).isLt
  have hy2 : (y 2).val < 1 := (y 2).isLt
  have k0 : ((((cfg0.win 5).blk t).view.emb y) 0).val = t.val / 64 := by
    show win0_5.index t (0 : Fin 3) * 1 + 1 * (y 0).val = _
    omega
  have k1 : ((((cfg0.win 5).blk t).view.emb y) 1).val = (y 1).val := by
    show win0_5.index t (1 : Fin 3) * 512 + 1 * (y 1).val = _
    omega
  have k2 : ((((cfg0.win 5).blk t).view.emb y) 2).val = (y 2).val := by
    show win0_5.index t (2 : Fin 3) * 1 + 1 * (y 2).val = _
    omega
  unfold k0_pay3
  refine (shapeCast_addUnit_apply (n := 2) ![512, 1] _ _ y).trans ?_
  unfold countsArr countsHalf
  have hn : 64 * ((((cfg0.win 5).blk t).view.emb y) 0).val + 63 = t.val := by rw [k0]; omega
  rw [outsAt0_congr m c _ t.val _ t.isLt hn]
  refine congrArg _ ?_
  funext a
  apply Fin.ext
  match a with
  | ⟨0, _⟩ => exact k1.symm
  | ⟨1, _⟩ => exact k2.symm

/-- An index of the array lies in point `t`'s block iff each coordinate lies in the block's range on its axis. -/
theorem mem_blk5 (t : Fin cfg0.N) (i : S2x512x1.Idx) :
    i ∈ ((cfg0.win 5).blk t).view.set ↔ ∀ a : Fin 3, win0_5.index t a * S1x512x1.size a ≤ (i a).val
      ∧ (i a).val < win0_5.index t a * S1x512x1.size a + S1x512x1.size a := by
  show i ∈ ((View.whole main_v3_1).slice (win0_5.rect t)).set ↔ _
  rw [View.set_slice_whole, Rect.mem_set_unit]
  exact Iff.rfl

/-- The two halves' last points cover the array, so after the run it holds `countsArr`. -/
theorem final5 (c : Dev nD) : (dats m 0 c).arrAt 5 cfg0.N = countsArr m c :=
  (dats m 0 c).arrAt_eq_of_cover 5 (countsArr m c) (flushed5_eq m c) fun i => by
    have hi0 : (i 0).val < 2 := (i 0).isLt
    have hi1 : (i 1).val < 512 := (i 1).isLt
    have hi2 : (i 2).val < 1 := (i 2).isLt
    refine ⟨lastPt ⟨(i 0).val, hi0⟩, (flush0_5 _).mpr (by rw [lastPt_val]; dsimp only; omega), ?_⟩
    rw [mem_blk5]
    obtain ⟨e0, e1, e2⟩ := idx_facts5 (lastPt ⟨(i 0).val, hi0⟩)
    have e0' : win0_5.index (lastPt ⟨(i 0).val, hi0⟩) (0 : Fin 3) = (i 0).val := by rw [e0, lastPt_val]; dsimp only; omega
    intro a
    match a with
    | ⟨0, _⟩ =>
      show win0_5.index _ (0 : Fin 3) * 1 ≤ (i 0).val ∧ (i 0).val < win0_5.index _ (0 : Fin 3) * 1 + 1
      rw [e0']; omega
    | ⟨1, _⟩ =>
      show win0_5.index _ (1 : Fin 3) * 512 ≤ (i 1).val ∧ (i 1).val < win0_5.index _ (1 : Fin 3) * 512 + 512
      rw [e1]; omega
    | ⟨2, _⟩ =>
      show win0_5.index _ (2 : Fin 3) * 1 ≤ (i 2).val ∧ (i 2).val < win0_5.index _ (2 : Fin 3) * 1 + 1
      rw [e2]; omega

end Cert.KernelIdeal.Outputs

end
-- ==== Proof.Blocks.lean ====
/-
  The kernel's input blocks read off the argument arrays.

  The grid has 2 × 64 = 128 points; point `t` has coordinates `(t / 64, t % 64)`.  At point `t`
  * the block of `x` is block `(64 · (t / 64) + t % 64, 0) = (t, 0)` of block shape 2048 × 1024: its entry `(r, k)` is
    entry `(2048 t + r, k)` of `x`;
  * the block of the segment words is block `(0, t)` of block shape 1 × 2048 of the words laid out as one row of
    262144: its entry `(0, r)` is word `2048 t + r`;
  * the block of the weights is the whole 1024 × 512 matrix, narrowed to a shorter format, which over the extended reals
    changes nothing;
  * the block of the bias is the whole vector laid out as one row of 512.
-/
import proofs.«422706_j6803228197419_1_alg».proof.Proof.Gen.KernelIdeal.Frame.Runs
import Idealize.ShloMosaic.Lib.ValueIdx
import Idealize.ShloMosaic.Lib.Pipeline.Value
import Idealize.ShloMosaic.Lib.Tactic

set_option maxRecDepth 16384

noncomputable section

namespace Cert.KernelIdeal.Blocks

open Cert.KernelIdeal Cert.KernelIdeal.Gen Idealize.ShloMosaic Idealize.ShloMosaic.ValueIdx Idealize.ShloMosaic.Pipeline
open Idealize.ShloMosaic.Tactic

variable {F : FTy → Type} [FloatOps F] (m : (ℓ : Loc nD τ sig) → Buf (Elt F) ℓ)

/-- The 2048 × 1024 block of `x` at grid point `t`. -/
abbrev xblk (c : Dev nD) (t : Fin cfg0.N) : Vec F S2048x1024 .f32 := iblk m c 0 t
/-- The 1 × 2048 block of segment words at grid point `t`. -/
abbrev idblk (c : Dev nD) (t : Fin cfg0.N) : Vec F S1x2048 .i32 := iblk m c 1 t
/-- The 1024 × 512 block of weights at grid point `t` (the same at every point). -/
abbrev wblk (c : Dev nD) (t : Fin cfg0.N) : Vec F S1024x512 .bf16 := iblk m c 2 t
/-- The 1 × 512 block of biases at grid point `t` (the same at every point). -/
abbrev bblk (c : Dev nD) (t : Fin cfg0.N) : Vec F S1x512 .f32 := iblk m c 3 t

/-- The block indices of the four inputs at grid point `t`: `(t, 0)` for `x` (since `64 (t / 64) + t % 64 = t`),
    `(0, t)` for the segment words, `(0, 0)` for the weights and for the bias.  A finite check over the 128 points. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A vector of length `n` laid out as a `1 × n` matrix: entry `(0, i)` of the matrix is entry `i` of the vector. -/
theorem shapeCast_row_apply {α : Type} {n : Nat} (a : (⟨1, ![n]⟩ : Shape).Idx → α)
    (h : (⟨1, ![n]⟩ : Shape).ShapeCasts ⟨2, ![1, n]⟩) (j : (⟨2, ![1, n]⟩ : Shape).Idx) (i : Fin n)
    (hi : (j 1).val = i.val) : shapeCast ⟨2, ![1, n]⟩ a h j = a (ix1 i) :=
  (shapeCast_addUnit_apply ![n] a h j).trans (congrArg a (funext fun d => by
    match d with
    | ⟨0, _⟩ => exact Fin.ext hi))

/-- Entry `(r, k)` of the block of `x` at point `t` is entry `(2048 t + r, k)` of `x`: the block's row offset is
    `t · 2048`, its column offset `0 · 1024`. -/
theorem xblk_apply (c : Dev nD) (t : Fin cfg0.N) (r : Fin 2048) (k : Fin 1024) (h : 2048 * t.val + r.val < 262144) :
    xblk m c t (ix2 r k) = m ((c.tc : Thread nD τ).loc main_arg0) (ix2 ⟨2048 * t.val + r.val, h⟩ k) := by
  unfold xblk iblk
  show V m c main_arg0 (((cfg0.win 0).blk t).view.emb (ix2 r k)) = _
  rw [V_main_arg0]
  obtain ⟨e0, e1, -⟩ := blockIndex t
  refine congrArg _ ?_
  funext a; apply Fin.ext
  match a with
  | ⟨0, _⟩ => show win0_0.index t (0 : Fin 2) * 2048 + 1 * r.val = 2048 * t.val + r.val; omega
  | ⟨1, _⟩ => show win0_0.index t (1 : Fin 2) * 1024 + 1 * k.val = k.val; omega

/-- The array the words' blocks are cut from is the word vector laid out as one row of 262144. -/
theorem wordsRow (c : Dev nD) : (V m c main_v0 : S1x262144.Idx → Elt F .i32)
    = shapeCast S1x262144 (m ((c.tc : Thread nD τ).loc main_arg1)) shapeCasts_S262144_S1x262144 := by
  show StableHlo.after hostOps0 (fun b => m (c, b)) (Proc.devRef .tc main_v0) = _
  after_results
  rfl

/-- Entry `(0, r)` of the block of segment words at point `t` is word `2048 t + r`: the block's column offset is
    `t · 2048`. -/
theorem idblk_apply (c : Dev nD) (t : Fin cfg0.N) (r : Fin 2048) (h : 2048 * t.val + r.val < 262144) :
    idblk m c t (ix2 0 r) = m ((c.tc : Thread nD τ).loc main_arg1) (ix1 ⟨2048 * t.val + r.val, h⟩) := by
  unfold idblk iblk
  show V m c main_v0 (((cfg0.win 1).blk t).view.emb (ix2 0 r)) = _
  rw [wordsRow]
  obtain ⟨-, -, -, e1, -⟩ := blockIndex t
  refine shapeCast_row_apply _ _ _ _ ?_
  show win0_1.index t (1 : Fin 2) * 2048 + 1 * r.val = 2048 * t.val + r.val
  omega

/-- The array the weights' block is cut from is the weight matrix narrowed to the shorter format. -/
theorem weightsNarrowed (m : (ℓ : Loc nD τ sig) → Buf (Elt Ideal) ℓ) (c : Dev nD) :
    (V m c main_v1 : S1024x512.Idx → Elt Ideal .bf16)
    = (truncf .bf16 (m ((c.tc : Thread nD τ).loc main_arg2) : FVec Ideal S1024x512 .f32) bitsLt_bf16_f32 : FVec Ideal S1024x512 .bf16) := by
  show StableHlo.after hostOps0 (fun b => m (c, b)) (Proc.devRef .tc main_v1) = _
  after_results

/-- Over the extended reals, entry `(k, j)` of the block of weights is entry `(k, j)` of the weight matrix: the block is
    the whole matrix, and narrowing the format is the identity there. -/
theorem wblk_apply (m : (ℓ : Loc nD τ sig) → Buf (Elt Ideal) ℓ) (c : Dev nD) (t : Fin cfg0.N) (k : Fin 1024) (j : Fin 512) :
    wblk (F := Ideal) m c t (ix2 k j) = m ((c.tc : Thread nD τ).loc main_arg2) (ix2 k j) := by
  unfold wblk iblk
  show V m c main_v1 (((cfg0.win 2).blk t).view.emb (ix2 k j)) = _
  rw [weightsNarrowed, truncf_apply]
  obtain ⟨-, -, -, -, e0, e1, -⟩ := blockIndex t
  refine congrArg _ ?_
  funext a; apply Fin.ext
  match a with
  | ⟨0, _⟩ => show win0_2.index t (0 : Fin 2) * 1024 + 1 * k.val = k.val; omega
  | ⟨1, _⟩ => show win0_2.index t (1 : Fin 2) * 512 + 1 * j.val = j.val; omega

/-- The array the bias's block is cut from is the bias vector laid out as one row of 512. -/
theorem biasRow (c : Dev nD) : (V m c main_v2 : S1x512.Idx → Elt F .f32)
    = shapeCast S1x512 (m ((c.tc : Thread nD τ).loc main_arg3)) shapeCasts_S512_S1x512 := by
  show StableHlo.after hostOps0 (fun b => m (c, b)) (Proc.devRef .tc main_v2) = _
  after_results
  rfl

/-- Entry `(0, j)` of the block of biases is bias `j`: the block is the whole row. -/
theorem bblk_apply (c : Dev nD) (t : Fin cfg0.N) (j : Fin 512) :
    bblk m c t (ix2 0 j) = m ((c.tc : Thread nD τ).loc main_arg3) (ix1 j) := by
  unfold bblk iblk
  show V m c main_v2 (((cfg0.win 3).blk t).view.emb (ix2 0 j)) = _
  rw [biasRow]
  obtain ⟨-, -, -, -, -, -, -, e1⟩ := blockIndex t
  refine shapeCast_row_apply _ _ _ _ ?_
  show win0_3.index t (1 : Fin 2) * 512 + 1 * j.val = j.val
  omega

end Cert.KernelIdeal.Blocks

end
-- ==== Proof.BagSpec.lean ====
/-
  Bag pooling of a ReLU layer: the mathematics both programs compute.

  Each of 262144 rows `n` has a hidden vector `hidden n j = max (∑ k, x n k * w k j + b j) 0` and a segment word
  `ids n`.  Segment `g` (one of 512) collects the rows whose word, read as a signed integer, is `g`:
  `segSum g j` is the sum of their hidden entries in column `j`, `segCnt g` their number.  A word that names no
  segment contributes to none.  The result is the affine image of the per-segment mean.
  Sums over all rows are regrouped as sums over 2 halves × 64 tiles × 2048 rows of a tile, row
  `2048 * (64 * c + s) + r` being row `r` of tile `s` of half `c`.
-/
import Idealize.ShloMosaic.PureOps.Ideal
import Idealize.ShloMosaic.Lib.ValueIdx

noncomputable section

namespace Cert.BagSpec

open Idealize.ShloMosaic

/-- One entry of the hidden layer: the ReLU of a row's dot product with a weight column, plus the column's bias. -/
def hidden (xrow : Fin 1024 → EReal) (wcol : Fin 1024 → EReal) (bias : EReal) : EReal :=
  max (∑ k : Fin 1024, xrow k * wcol k + bias) 0

/-- A function of the 262144 rows read at a natural number: zero past the last row. -/
def rowAt (f : Fin 262144 → EReal) (n : ℕ) : EReal := if h : n < 262144 then f ⟨n, h⟩ else 0

theorem rowAt_of_lt (f : Fin 262144 → EReal) (n : ℕ) (h : n < 262144) : rowAt f n = f ⟨n, h⟩ := dif_pos h

end Cert.BagSpec

end
-- ==== Proof.TileValue.lean ====
/-
  One tile of the bag-pooling kernel, read entry by entry on the extended reals.

  A tile has 2048 rows.  Row `r` has a hidden vector `h r j = max (∑ k, x r k * w k j + bias j) 0` and a segment
  word `ids r`.  The kernel forms the 512 × 2048 selector matrix `sel b r`, which is 1 when the word `ids r` is the
  32-bit word of `b` and 0 otherwise, and adds to its two accumulators
    sums b j   += ∑ r, sel b r * h r j      (a matrix product),
    counts b   += ∑ r, sel b r              (a sum along the rows of `sel`).
  For `b < 512` the word of `b` is the only 32-bit word whose signed reading is `b`, so `sel b r` is 1 exactly
  when `ids r`, read as a signed integer, is `b`.  On the extended reals `1 * h = h` and `0 * h = 0` for every `h`,
  infinite ones included, so the product with the selector is the sum of the selected rows' hidden entries, with no
  finiteness assumption.  The zero word is the real number 0, a change of float format does not change an extended
  real, and the reshapes met here only add or drop an axis of extent one.
-/
import proofs.«422706_j6803228197419_1_alg».proof.Proof.Gen.KernelIdeal.Skeleton
import proofs.«422706_j6803228197419_1_alg».proof.Proof.BagSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-! ## The selector entry -/

/-- A natural number below 512, written as a 32-bit word and read back as a signed integer, is itself: it is far below
    `2 ^ 31`, so the sign bit is clear. -/
theorem toInt_ofNat_small (n : Nat) (h : n < 512) : (BitVec.ofNat 32 n).toInt = (n : Int) := by
  rw [BitVec.toInt_eq_toNat_cond, BitVec.toNat_ofNat]
  have e : n % 2 ^ 32 = n := Nat.mod_eq_of_lt (by omega)
  rw [e]
  split <;> omega

/-- A 32-bit word equals the word of `b < 512` exactly when its signed reading is `b` (the signed reading is
    injective on words). -/
theorem word_eq_iff (b : Fin 512) (w : BitVec 32) : BitVec.ofNat 32 b.val = w ↔ w.toInt = (b.val : Int) := by
  constructor
  · intro h
    subst h
    exact toInt_ofNat_small b.val b.isLt
  · intro h
    apply BitVec.eq_of_toInt_eq
    rw [h]
    exact toInt_ofNat_small b.val b.isLt

/-- The true bit, widened to 32 bits and read as a signed integer, is the extended real 1. -/
theorem bit_true : (((BitVec.setWidth 32 (BitVec.ofBool true)).toInt : ℝ) : EReal) = 1 := by
  have e : (BitVec.setWidth 32 (BitVec.ofBool true)).toInt = 1 := by decide
  rw [e, Int.cast_one, EReal.coe_one]

/-- The false bit, widened to 32 bits and read as a signed integer, is the extended real 0. -/
theorem bit_false : (((BitVec.setWidth 32 (BitVec.ofBool false)).toInt : ℝ) : EReal) = 0 := by
  have e : (BitVec.setWidth 32 (BitVec.ofBool false)).toInt = 0 := by decide
  rw [e, Int.cast_zero, EReal.coe_zero]

/-- The selector matrix at `(b, r)`: 1 when row `r`'s segment word, read as a signed integer, is `b`, and 0 otherwise.
    The entry compares the word of the row number `b` with the word `ids r` spread over all 512 rows, widens the
    resulting bit and reads it as a number. -/
theorem onehot_apply (x1 : Vec Ideal S1x2048 .i32) (b : Fin 512) (r : Fin 2048) :
    k0_pay6 (F := Ideal) x1 (ix2 b r) = if (x1 (ix2 0 r)).toInt = (b.val : Int) then (1 : EReal) else 0 := by
  unfold k0_pay6
  rw [sitofp_apply, extui_apply]
  show FloatOps.sitofp .f32 ((IntOp.cmpi .eq (iota .tc S512x2048 32 [0] _ (ix2 b r)) (broadcastTo S512x2048 (shapeCast S1x2048 x1 _) _ (ix2 b r))).setWidth 32) = _
  rw [iota_single_apply, broadcastTo_1b_ab_apply, shapeCast_self]
  show (((BitVec.setWidth 32 (BitVec.ofBool (BitVec.ofNat 32 b.val == x1 (ix2 0 r)))).toInt : ℝ) : EReal) = _
  by_cases h : (x1 (ix2 0 r)).toInt = (b.val : Int)
  · have e : BitVec.ofNat 32 b.val = x1 (ix2 0 r) := (word_eq_iff b _).2 h
    rw [if_pos h, e, beq_self_eq_true]
    exact bit_true
  · have e : ¬ BitVec.ofNat 32 b.val = x1 (ix2 0 r) := fun e => h ((word_eq_iff b _).1 e)
    rw [if_neg h, beq_eq_false_iff_ne.2 e]
    exact bit_false

/-! ## The two matrix products

Each contracts the left factor's second axis with the right factor's first.  The four axis facts say which coordinate of
the output index or of the contracted index each operand coordinate is. -/

theorem lhs_mmA_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhs_mmA_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhs_mmA_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhs_mmA_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The 2048 × 1024 by 1024 × 512 product into a zero accumulator, read at `(p, c)`: the sum over the 1024 contracted
    coordinates of the products of row `p`'s and column `c`'s entries. -/
theorem mmA_apply (A : FVec Ideal S2048x1024 .bf16) (B : FVec Ideal S1024x512 .bf16) (p : Fin 2048) (c : Fin 512) :
    matmul dot_S2048x1024_S1024x512_S2048x512_1_0_0_1_n_n none A B (constant (F := Ideal) S2048x512 .f32 0x00000000#32) (ix2 p c)
      = ∑ k : Fin 1024, A (ix2 p k) * B (ix2 k c) := by
  refine (Ideal.matmul_constant_zero_apply dot_S2048x1024_S1024x512_S2048x512_1_0_0_1_n_n none A B (ix2 p c)).trans ?_
  rw [← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 p c) ((contrEquiv1 dot_S2048x1024_S1024x512_S2048x512_1_0_0_1_n_n 1024 rfl rfl).symm k) = ix2 p k := funext fun a => Fin.ext (by
    match a with
    | ⟨0, _⟩ => exact lhs_mmA_0 _ _
    | ⟨1, _⟩ => exact (lhs_mmA_1 _ _).trans hk)
  have er : dot_S2048x1024_S1024x512_S2048x512_1_0_0_1_n_n.rhsIdx (ix2 p c) ((contrEquiv1 dot_S2048x1024_S1024x512_S2048x512_1_0_0_1_n_n 1024 rfl rfl).symm k) = ix2 k c := funext fun a => Fin.ext (by
    match a with
    | ⟨0, _⟩ => exact (rhs_mmA_0 _ _).trans hk
    | ⟨1, _⟩ => exact rhs_mmA_1 _ _)
  rw [el, er]

theorem lhs_mmB_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_mmB_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_mmB_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_mmB_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The 512 × 2048 by 2048 × 512 product into a zero accumulator, read at `(p, c)`: the sum over the 2048 contracted
    coordinates of the products of row `p`'s and column `c`'s entries. -/
theorem mmB_apply (A : FVec Ideal S512x2048 .bf16) (B : FVec Ideal S2048x512 .bf16) (p : Fin 512) (c : Fin 512) :
    matmul dot_S512x2048_S2048x512_S512x512_1_0_0_1_n_n none A B (constant (F := Ideal) S512x512 .f32 0x00000000#32) (ix2 p c)
      = ∑ k : Fin 2048, A (ix2 p k) * B (ix2 k c) := by
  refine (Ideal.matmul_constant_zero_apply dot_S512x2048_S2048x512_S512x512_1_0_0_1_n_n none A B (ix2 p c)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p c) ((contrEquiv1 dot_S512x2048_S2048x512_S512x512_1_0_0_1_n_n 2048 rfl rfl).symm k) = ix2 p k := funext fun a => Fin.ext (by
    match a with
    | ⟨0, _⟩ => exact lhs_mmB_0 _ _
    | ⟨1, _⟩ => exact (lhs_mmB_1 _ _).trans hk)
  have er : dot_S512x2048_S2048x512_S512x512_1_0_0_1_n_n.rhsIdx (ix2 p c) ((contrEquiv1 dot_S512x2048_S2048x512_S512x512_1_0_0_1_n_n 2048 rfl rfl).symm k) = ix2 k c := funext fun a => Fin.ext (by
    match a with
    | ⟨0, _⟩ => exact (rhs_mmB_0 _ _).trans hk
    | ⟨1, _⟩ => exact rhs_mmB_1 _ _)
  rw [el, er]

/-! ## The sums accumulator after one tile -/

/-- The sums accumulator after one tile, at segment `b` and column `j`: its old value plus the hidden entries, in
    column `j`, of the tile's rows whose segment word reads `b`.  The product with the selector is
    `∑ r, sel b r * h r j`; `1 * h = h` and `0 * h = 0` turn each term into the selected hidden entry or 0. -/
theorem sums_tile_apply (x0 : Vec Ideal S2048x1024 .f32) (x2 : Vec Ideal S1024x512 .bf16) (x3 : Vec Ideal S1x512 .f32) (x1 : Vec Ideal S1x2048 .i32) (acc : Vec Ideal S512x512 .f32) (b j : Fin 512) :
    k0_pay7 (F := Ideal) x0 x2 x3 x1 acc (ix2 b j) = acc (ix2 b j) + ∑ r : Fin 2048, if (x1 (ix2 0 r)).toInt = (b.val : Int) then Cert.BagSpec.hidden (fun k => x0 (ix2 r k)) (fun k => x2 (ix2 k j)) (x3 (ix2 0 j)) else 0 := by
  unfold k0_pay7
  rw [shapeCast_self, addf_apply]
  refine congrArg (acc (ix2 b j) + ·) ?_
  refine (mmB_apply _ _ b j).trans ?_
  refine Finset.sum_congr rfl fun r _ => ?_
  rw [truncf_apply, truncf_apply, onehot_apply, maximumf_apply, addf_apply, broadcast_apply, mmA_apply, broadcastTo_1b_ab_apply, shapeCast_self, shapeCast_self]
  have h0 : (FloatOps.ofBits (F := Ideal) .f32 0#32) = 0 := Ideal.ofBits_zero_f32
  rw [h0, ite_mul, one_mul, zero_mul]
  rfl

/-! ## The counts accumulator after one tile -/

/-- A length-`a` array viewed as an `a × 1` column reads, at `(i, u)`, the array at `i`: both sit at position `i` in
    row-major order. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 2048 columns of a 512 × 2048 block, read at row `b`: the sum of that row's entries. -/
theorem lanesum_apply (src : FVec Ideal S512x2048 .f32) (h : S512x2048.Reduces [1] S512) (hφ : FKind.Formats .f32)
    (hacc : (0x00000000#32 : BitVec 32) = FKind.add.neutral .f32 hφ) (b : Fin 512) :
    multiReduction (F := Ideal) .add [1] S512 src 0x00000000#32 h hφ hacc (ix1 b) = ∑ r : Fin 2048, src (ix2 b r) := by
  refine (Ideal.multiReduction_add_single src 0x00000000#32 h hφ hacc (ix1 b)).trans ?_
  refine Finset.sum_congr rfl fun r _ => congrArg src (funext fun a => Fin.ext (by
    match a with
    | ⟨0, _⟩ => rfl
    | ⟨1, _⟩ => rfl))

/-- The counts accumulator after one tile, at segment `b`: its old value plus the number of the tile's rows whose
    segment word reads `b`, as the sum of row `b` of the selector. -/
theorem counts_tile_apply (x1 : Vec Ideal S1x2048 .i32) (acc : Vec Ideal S512x1 .f32) (b : Fin 512) :
    k0_pay1 (F := Ideal) (k0_pay8 (F := Ideal) x1 acc) (ix2 b 0) = acc (ix2 b 0) + ∑ r : Fin 2048, if (x1 (ix2 0 r)).toInt = (b.val : Int) then (1 : EReal) else 0 := by
  unfold k0_pay1 k0_pay8
  rw [shapeCast_self, addf_apply]
  refine congrArg (acc (ix2 b 0) + ·) ?_
  refine (shapeCast_a_a1_apply _ _ b 0).trans ?_
  refine (lanesum_apply _ _ _ _ b).trans ?_
  exact Finset.sum_congr rfl fun r _ => onehot_apply x1 b r

/-! ## The accumulators' first values and the values written out -/

/-- The sums accumulator starts at zero everywhere: the zero word is the real 0. -/
theorem zero_sums_apply (b j : Fin 512) : k0_pay4 (F := Ideal) (ix2 b j) = 0 := by
  unfold k0_pay4
  rw [shapeCast_self, broadcast_apply]
  exact Ideal.ofBits_zero_f32

/-- The counts accumulator starts at zero everywhere. -/
theorem zero_counts_apply (b : Fin 512) : k0_pay5 (F := Ideal) (ix2 b 0) = 0 := by
  unfold k0_pay5
  rw [shapeCast_self, broadcast_apply]
  exact Ideal.ofBits_zero_f32

/-- The sums written out carry a leading axis of extent one: entry `(0, b, j)` is the accumulator's `(b, j)`. -/
theorem out_sums_apply (v : Vec Ideal S512x512 .f32) (b j : Fin 512) : k0_pay2 (F := Ideal) v (ix3 0 b j) = v (ix2 b j) := by
  unfold k0_pay2
  exact shapeCast_ab_1ab_apply v _ 0 b j

/-- The counts written out likewise: entry `(0, b, 0)` is the accumulator's `(b, 0)`. -/
theorem out_counts_apply (v : Vec Ideal S512x1 .f32) (b : Fin 512) : k0_pay3 (F := Ideal) v (ix3 0 b 0) = v (ix2 b 0) := by
  unfold k0_pay3
  exact shapeCast_ab_1ab_apply v _ 0 b 0

end Cert.KernelIdeal.TileValue

end
-- ==== Proof.Fold.lean ====
/-
  The accumulators as sums over tiles.

  Row `n` of the input contributes, to segment `b`, its hidden entry in column `j` (to the sums) and one (to the
  counts) when its segment word read as a signed integer is `b`, and nothing otherwise.  A tile's update of an
  accumulator adds, at `(b, j)`, the contributions of the tile's 2048 rows: tile `p` holds rows `2048 p + r`.  So
  when half `q` ends, an accumulator holds the sum, over the half's 64 tiles `64 q + s`, of the tiles' addends.
-/
import proofs.«422706_j6803228197419_1_alg».proof.Proof.Outputs
import proofs.«422706_j6803228197419_1_alg».proof.Proof.Blocks
import proofs.«422706_j6803228197419_1_alg».proof.Proof.TileValue
import proofs.«422706_j6803228197419_1_alg».proof.Proof.BagSpec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- Row `n`'s contribution to the sum of segment `b` in column `j`. -/
def rowSum (c : Dev nD) (b j : Fin 512) (n : Fin 262144) : EReal :=
  if (m ((c.tc : Thread nD τ).loc main_arg1) (ix1 n)).toInt = (b.val : Int) then
    Cert.BagSpec.hidden (fun k => m ((c.tc : Thread nD τ).loc main_arg0) (ix2 n k))
      (fun k => m ((c.tc : Thread nD τ).loc main_arg2) (ix2 k j)) (m ((c.tc : Thread nD τ).loc main_arg3) (ix1 j))
  else 0

/-- Row `n`'s contribution to the count of segment `b`. -/
def rowCnt (c : Dev nD) (b : Fin 512) (n : Fin 262144) : EReal :=
  if (m ((c.tc : Thread nD τ).loc main_arg1) (ix1 n)).toInt = (b.val : Int) then (1 : EReal) else 0

/-- What tile `p` adds to the sums accumulator at `(b, j)`. -/
def tileSum (c : Dev nD) (p : ℕ) (bj : Fin 512 × Fin 512) : EReal :=
  ∑ r : Fin 2048, Cert.BagSpec.rowAt (rowSum m c bj.1 bj.2) (2048 * p + r.val)

/-- What tile `p` adds to the counts accumulator at `b`. -/
def tileCnt (c : Dev nD) (p : ℕ) (b : Fin 512) : EReal :=
  ∑ r : Fin 2048, Cert.BagSpec.rowAt (rowCnt m c b) (2048 * p + r.val)

theorem row_lt (t : Fin cfg0.N) (r : Fin 2048) : 2048 * t.val + r.val < 262144 := by
  have ht : t.val < 128 := lt_of_lt_of_eq t.isLt N_0
  have hr := r.isLt
  omega

/-- A tile's update of the sums accumulator adds the tile's addend. -/
theorem upd_sums (c : Dev nD) (t : Fin cfg0.N) (acc : Vec Ideal S512x512 .f32) (b j : Fin 512) :
    k0_pay7 (F := Ideal) (iblk m c 0 t) (iblk m c 2 t) (iblk m c 3 t) (iblk m c 1 t) acc (ix2 b j)
      = acc (ix2 b j) + tileSum m c t.val (b, j) := by
  show k0_pay7 (F := Ideal) (Blocks.xblk m c t) (Blocks.wblk m c t) (Blocks.bblk m c t) (Blocks.idblk m c t) acc (ix2 b j) = _
  rw [TileValue.sums_tile_apply]
  refine congrArg _ (Finset.sum_congr rfl fun r _ => ?_)
  rw [Cert.BagSpec.rowAt_of_lt _ _ (row_lt t r)]
  unfold rowSum
  rw [Blocks.idblk_apply m c t r (row_lt t r), Blocks.bblk_apply m c t j]
  simp only [Blocks.xblk_apply m c t r _ (row_lt t r), Blocks.wblk_apply m c t _ j]

/-- A tile's update of the counts accumulator adds the tile's addend. -/
theorem upd_counts (c : Dev nD) (t : Fin cfg0.N) (acc : Vec Ideal S512x1 .f32) (b : Fin 512) :
    k0_pay1 (F := Ideal) (k0_pay8 (F := Ideal) (iblk m c 1 t) acc) (ix2 b 0) = acc (ix2 b 0) + tileCnt m c t.val b := by
  show k0_pay1 (F := Ideal) (k0_pay8 (F := Ideal) (Blocks.idblk m c t) acc) (ix2 b 0) = _
  rw [TileValue.counts_tile_apply]
  refine congrArg _ (Finset.sum_congr rfl fun r _ => ?_)
  rw [Cert.BagSpec.rowAt_of_lt _ _ (row_lt t r)]
  unfold rowCnt
  rw [Blocks.idblk_apply m c t r (row_lt t r)]

/-- The sums accumulator after each point, read at every `(b, j)`. -/
def sumsAt (c : Dev nD) (n : ℕ) (h : n < cfg0.N) (bj : Fin 512 × Fin 512) : EReal :=
  (outsAt0 m c n h).2.2.1 (ix2 bj.1 bj.2)

/-- The counts accumulator after each point, read at every `b`. -/
def countsAt (c : Dev nD) (n : ℕ) (h : n < cfg0.N) (b : Fin 512) : EReal :=
  (outsAt0 m c n h).2.2.2 (ix2 b 0)

theorem sumsAt_first (c : Dev nD) (n : ℕ) (h : n < cfg0.N) (h0 : n % 64 = 0) :
    sumsAt m c n h = fun bj => 0 + tileSum m c n bj := by
  funext bj
  unfold sumsAt
  rw [Accum.sums_first m c ⟨n, h⟩ h0, upd_sums m c ⟨n, h⟩, TileValue.zero_sums_apply]

theorem sumsAt_next (c : Dev nD) (n : ℕ) (h : n + 1 < cfg0.N) (h0 : ¬(n + 1) % 64 = 0) :
    sumsAt m c (n + 1) h = fun bj => sumsAt m c n (Nat.lt_of_succ_lt h) bj + tileSum m c (n + 1) bj := by
  funext bj
  unfold sumsAt
  rw [Accum.sums_next m c ⟨n + 1, h⟩ h0, upd_sums m c ⟨n + 1, h⟩]
  rw [Outputs.outsAt0_congr m c ((⟨n + 1, h⟩ : Fin cfg0.N).val - 1) n _ (Nat.lt_of_succ_lt h) (Nat.add_sub_cancel n 1)]

theorem countsAt_first (c : Dev nD) (n : ℕ) (h : n < cfg0.N) (h0 : n % 64 = 0) :
    countsAt m c n h = fun b => 0 + tileCnt m c n b := by
  funext b
  unfold countsAt
  rw [Accum.counts_first m c ⟨n, h⟩ h0, upd_counts m c ⟨n, h⟩, TileValue.zero_counts_apply]

theorem countsAt_next (c : Dev nD) (n : ℕ) (h : n + 1 < cfg0.N) (h0 : ¬(n + 1) % 64 = 0) :
    countsAt m c (n + 1) h = fun b => countsAt m c n (Nat.lt_of_succ_lt h) b + tileCnt m c (n + 1) b := by
  funext b
  unfold countsAt
  rw [Accum.counts_next m c ⟨n + 1, h⟩ h0, upd_counts m c ⟨n + 1, h⟩]
  rw [Outputs.outsAt0_congr m c ((⟨n + 1, h⟩ : Fin cfg0.N).val - 1) n _ (Nat.lt_of_succ_lt h) (Nat.add_sub_cancel n 1)]

/-- WHEN HALF `q` ENDS the sums accumulator holds the sum of the addends of the half's 64 tiles. -/
theorem sumsHalf_apply (c : Dev nD) (q : Fin 2) (b j : Fin 512) :
    Outputs.sumsHalf m c q (ix2 b j) = 0 + ∑ s ∈ Finset.range 64, tileSum m c (64 * q.val + s) (b, j) := by
  show sumsAt m c (64 * q.val + 63) (Outputs.last_lt q) (b, j) = _
  rw [Pipeline.eq_accAt (sumsAt m c) 64 (fun n _ bj => 0 + tileSum m c n bj)
    (fun n _ acc bj => acc bj + tileSum m c n bj) (fun n h h0 => sumsAt_first m c n h h0)
    (fun n h h0 => sumsAt_next m c n h h0) q.val 63 (by omega) (Outputs.last_lt q)]
  exact Pipeline.accAt_add_apply _ _ (fun _ => 0) (tileSum m c) (64 * q.val) 63 (fun _ _ => rfl)
    (fun _ _ _ _ _ _ => rfl) 63 le_rfl (Outputs.last_lt q) (b, j)

/-- WHEN HALF `q` ENDS the counts accumulator holds the sum of the addends of the half's 64 tiles. -/
theorem countsHalf_apply (c : Dev nD) (q : Fin 2) (b : Fin 512) :
    Outputs.countsHalf m c q (ix2 b 0) = 0 + ∑ s ∈ Finset.range 64, tileCnt m c (64 * q.val + s) b := by
  show countsAt m c (64 * q.val + 63) (Outputs.last_lt q) b = _
  rw [Pipeline.eq_accAt (countsAt m c) 64 (fun n _ b => 0 + tileCnt m c n b)
    (fun n _ acc b => acc b + tileCnt m c n b) (fun n h h0 => countsAt_first m c n h h0)
    (fun n h h0 => countsAt_next m c n h h0) q.val 63 (by omega) (Outputs.last_lt q)]
  exact Pipeline.accAt_add_apply _ _ (fun _ => 0) (tileCnt m c) (64 * q.val) 63 (fun _ _ => rfl)
    (fun _ _ _ _ _ _ => rfl) 63 le_rfl (Outputs.last_lt q) b

end Cert.KernelIdeal.Fold

end
-- ==== Proof.Tail.lean ====
/-
  The host operations after the kernel region, and the run with its result named.

  After the region the host adds the two halves of each output (a sum over the leading axis, from zero), divides
  the summed sums by the summed counts broadcast along the columns, multiplies by the last weight matrix and adds
  the last bias.  `tailOf` is that composition as one function of the two output arrays and the two remaining
  arguments; the run ends with the result buffer at `tailOf` of the arrays the region leaves.
-/
import proofs.«422706_j6803228197419_1_alg».proof.Proof.Outputs
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Tail

open Cert.KernelIdeal Cert.KernelIdeal.Gen

variable {F : FTy → Type} [FloatOps F]

/-- The host's last ten operations as one function: the halves summed, the mean per segment, the affine map. -/
def tailOf (S : (⟨S2x512x512, .f32⟩ : BufTy).Contents (Elt F)) (C : (⟨S2x512x1, .f32⟩ : BufTy).Contents (Elt F))
    (W2 : (⟨S512x2, .f32⟩ : BufTy).Contents (Elt F)) (b2 : (⟨S2, .f32⟩ : BufTy).Contents (Elt F)) :
    (⟨S512x2, .f32⟩ : BufTy).Contents (Elt F) :=
  addf
    (Host.dotGeneral dot_S512x512_S512x2_S512x2_1_0_0_1_n_n none
      (Host.divf
        (Host.reduceAdd (φ := .f32) S (constant S_ .f32 0x00000000#32) reducesTo_S2x512x512_S512x512_d0 h_S_)
        (broadcastInDim S512x512 ![0, 1] bcast_S512x1_S512x512_0_1
          (Host.reduceAdd (φ := .f32) C (constant S_ .f32 0x00000000#32) reducesTo_S2x512x1_S512x1_d0 h_S_)))
      W2)
    (broadcastInDim S512x2 ![0, 1] bcast_S1x2_S512x2_0_1 (broadcastInDim S1x2 ![1] bcast_S2_S1x2_1 b2))

variable (m : (ℓ : Loc nD τ sig) → Buf (Elt F) ℓ) (ρ : Dev nD → PrngReg)

/-- The result buffer after the host's last operations: `tailOf` of the two output arrays as the region leaves them
    and of the last two arguments, which no operation writes. -/
theorem result_eq (c : Dev nD) :
    Pipeline.afterTail₀ cfgs (dats m) 0 (V0 m) [hostOps1] c main_v11
      = tailOf (Outputs.sumsArr m c) (Outputs.countsArr m c) (m ((c.tc : Thread nD τ).loc main_arg4))
          (m ((c.tc : Thread nD τ).loc main_arg5)) := by
  have e4 : Pipeline.withArrays (cfgs 0).spec c (V0 m c) (fun w => (dats m 0 c).arrAt w (cfgs 0).N)
      (Proc.devRef .tc main_v3_0) = Outputs.sumsArr m c :=
    (Pipeline.withArrays_arr spec0 launch0.win.arr_inj c _ _ 4).trans (Outputs.final4 m c)
  have e5 : Pipeline.withArrays (cfgs 0).spec c (V0 m c) (fun w => (dats m 0 c).arrAt w (cfgs 0).N)
      (Proc.devRef .tc main_v3_1) = Outputs.countsArr m c :=
    (Pipeline.withArrays_arr spec0 launch0.win.arr_inj c _ _ 5).trans (Outputs.final5 m c)
  have a4 : Pipeline.withArrays (cfgs 0).spec c (V0 m c) (fun w => (dats m 0 c).arrAt w (cfgs 0).N)
      (Proc.devRef .tc main_arg4) = m ((c.tc : Thread nD τ).loc main_arg4) :=
    (Pipeline.withArrays_of_ne _ c (V0 m c) _ main_arg4
      (by exact (by decide : ∀ w, Pipeline.arrRef spec0 w ≠ main_arg4))).trans (V_main_arg4 m c)
  have a5 : Pipeline.withArrays (cfgs 0).spec c (V0 m c) (fun w => (dats m 0 c).arrAt w (cfgs 0).N)
      (Proc.devRef .tc main_arg5) = m ((c.tc : Thread nD τ).loc main_arg5) :=
    (Pipeline.withArrays_of_ne _ c (V0 m c) _ main_arg5
      (by exact (by decide : ∀ w, Pipeline.arrRef spec0 w ≠ main_arg5))).trans (V_main_arg5 m c)
  unfold Pipeline.afterTail₀
  show StableHlo.after hostOps1 _ (Proc.devRef .tc main_v11) = _
  after_results
  rw [e4, e5, a4, a5]
  rfl

/-- The run, read: the result at `tailOf` of the output arrays, every argument as launched. -/
theorem run : θ_run defs (onTc (τ := τ) (main (F := F))) ⟨m, fun _ => 0, ρ⟩ fun r => ∀ c : Dev nD,
      r.2.mem ((c.tc : Thread nD τ).loc main_v11)
        = tailOf (Outputs.sumsArr m c) (Outputs.countsArr m c) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Tail

end
-- ==== Proof.HalvesSum.lean ====
/-
  The host's sum of the two halves, read at an index.

  After the kernel region the program adds the two halves' partial results: a reduction with addition over the leading
  axis (of extent 2) of a [2, 512, 512] array of per-segment sums and of a [2, 512, 1] array of per-segment counts, each
  from a scalar initial value.  At the exact values such a reduction over one axis is the initial value plus the sum
  over that axis's coordinates; the index with coordinate `c` put back in front of `(b, j)` is `(c, b, j)`.
-/
import proofs.«422706_j6803228197419_1_alg».proof.KernelIdeal
import Idealize.ShloMosaic.PureOps.Ideal.Laws
import Idealize.ShloMosaic.Lib.ValueIdx
import Idealize.ShloMosaic.Lib.IdealHost

noncomputable section

namespace Cert.KernelIdeal.HalvesSum

open Cert.KernelIdeal Idealize.ShloMosaic Idealize.ShloMosaic.ValueIdx

variable [Cert.KernelIdeal.Facts₀]
open Cert.KernelIdeal.Facts₀

/-- The per-segment sums: entry `(b, j)` of the reduced array is the initial scalar plus the two halves' entries. -/
theorem sums_halves_apply (X : (⟨S2x512x512, .f32⟩ : BufTy).Contents (Elt Ideal))
    (z : (⟨S_, .f32⟩ : BufTy).Contents (Elt Ideal)) (b j : Fin 512) :
    Host.reduceAdd (F := Ideal) (φ := .f32) X z reducesTo_S2x512x512_S512x512_d0 h_S_ (ix2 b j)
      = z ix0 + ∑ c : Fin 2, X (ix3 c b j) := by
  have h : S2x512x512.Reduces [0] S512x512 := by decide
  rw [hostReduceAdd_apply, Ideal.hostReduceAdd_single reducesTo_S2x512x512_S512x512_d0 h]
  congr 1
  · exact congrArg z (funext fun a => a.elim0)
  · refine Finset.sum_congr rfl fun c _ => congrArg X ?_
    funext a
    fin_cases a <;> rfl

/-- The per-segment counts: entry `(b, 0)` of the reduced array is the initial scalar plus the two halves' entries. -/
theorem counts_halves_apply (X : (⟨S2x512x1, .f32⟩ : BufTy).Contents (Elt Ideal))
    (z : (⟨S_, .f32⟩ : BufTy).Contents (Elt Ideal)) (b : Fin 512) :
    Host.reduceAdd (F := Ideal) (φ := .f32) X z reducesTo_S2x512x1_S512x1_d0 h_S_ (ix2 b 0)
      = z ix0 + ∑ c : Fin 2, X (ix3 c b 0) := by
  have h : S2x512x1.Reduces [0] S512x1 := by decide
  rw [hostReduceAdd_apply, Ideal.hostReduceAdd_single reducesTo_S2x512x1_S512x1_d0 h]
  congr 1
  · exact congrArg z (funext fun a => a.elim0)
  · refine Finset.sum_congr rfl fun c _ => congrArg X ?_
    funext a
    fin_cases a <;> rfl

end Cert.KernelIdeal.HalvesSum

end
-- ==== Proof.Regroup.lean ====
/-
  A sum over all 262144 rows, regrouped by half, tile and row.

  A sum over `a * b` consecutive natural numbers is a sum over `a` blocks of `b` consecutive numbers, block `i`
  starting at `b * i`.  Used twice, 262144 = 128 * 2048 and 128 = 2 * 64, it writes row `n` as
  `2048 * (64 * c + s) + r` with `c < 2`, `s < 64`, `r < 2048`.
-/
import Mathlib.Algebra.BigOperators.Group.Finset.Basic
import Mathlib.Algebra.BigOperators.Fin
import Mathlib.Data.Fintype.BigOperators
import Mathlib.Tactic.NormNum.Basic

namespace Cert.BagSpec

open Finset

/-- A sum over `a * b` consecutive naturals is the sum over `a` blocks of the sums over each block's `b` members:
the first `a` blocks fill `range (a * b)`, and the next block is `range b` shifted by `b * a`. -/
theorem sum_range_mul_blocks {M : Type*} [AddCommMonoid M] (f : ℕ → M) (a b : ℕ) :
    ∑ n ∈ range (a * b), f n = ∑ i ∈ range a, ∑ j ∈ range b, f (b * i + j) := by
  induction a with
  | zero => simp
  | succ a ih => rw [Nat.succ_mul, sum_range_add, ih, sum_range_succ, Nat.mul_comm a b]

/-- All rows, as 2 halves of 64 tiles of 2048 rows.  Both sides become sums over ranges of naturals; the right side
is split into 128 blocks of 2048, and the 128 blocks into 2 groups of 64. -/
theorem sum_halves_tiles_rows {M : Type*} [AddCommMonoid M] (g : ℕ → M) :
    ∑ c : Fin 2, ∑ s ∈ Finset.range 64, ∑ r : Fin 2048, g (2048 * (64 * c.val + s) + r.val)
      = ∑ n : Fin 262144, g n.val := by
  have hrows : ∀ t : ℕ, ∑ r : Fin 2048, g (2048 * t + r.val) = ∑ r ∈ range 2048, g (2048 * t + r) :=
    fun t => Fin.sum_univ_eq_sum_range (fun r => g (2048 * t + r)) 2048
  have hhalves : ∑ c : Fin 2, ∑ s ∈ range 64, ∑ r ∈ range 2048, g (2048 * (64 * c.val + s) + r)
      = ∑ c ∈ range 2, ∑ s ∈ range 64, ∑ r ∈ range 2048, g (2048 * (64 * c + s) + r) :=
    Fin.sum_univ_eq_sum_range (fun c => ∑ s ∈ range 64, ∑ r ∈ range 2048, g (2048 * (64 * c + s) + r)) 2
  have hall : ∑ n : Fin 262144, g n.val = ∑ n ∈ range 262144, g n :=
    Fin.sum_univ_eq_sum_range g 262144
  have h1 : (262144 : ℕ) = 128 * 2048 := by norm_num
  have h2 : (128 : ℕ) = 2 * 64 := by norm_num
  simp only [hrows]
  rw [hhalves, hall, h1, sum_range_mul_blocks g 128 2048, h2,
    sum_range_mul_blocks (fun t => ∑ r ∈ range 2048, g (2048 * t + r)) 2 64]

end Cert.BagSpec
-- ==== Proof.LibPoolScatter.lean ====
/-
  A row scatter-add is a sum per segment.

  A host scatter-add whose updates are the `N` rows of an `N × C` array, row `n` added into row `idx n` of a `G × C`
  operand (update axis 1 a window axis, operand axis 0 scattered and inserted, the index vector on axis 1 of the
  `N × 1` indices), leaves at `(g, j)`, at the exact values, the operand's entry plus the sum of `upd n j` over the rows
  `n` whose index word, read signed, is `g`. Update entry `(n, j')` lands at `(idx n read signed, j')` when that row lies
  in `[0, G)` and nowhere otherwise; the column is never moved. So the update entries landing at `(g, j)` are the entries
  `(n, j)` of the rows with index word `g`, and the filtered sum over the `N × C` update indices is a sum over rows.
-/
import Idealize.ShloMosaic.PureOps.Ideal
import Idealize.ShloMosaic.Lib.ValueIdx

noncomputable section

namespace Cert.LibPoolScatter

open Idealize.ShloMosaic Idealize.ShloMosaic.ValueIdx

/-- The dimension numbers of a row scatter: updates `N × C` into an operand `G × C`, indices `N × 1`; the update's
    axis 1 is a window axis, the operand's axis 0 is scattered and inserted, the index vector lies on axis 1. -/
abbrev rowDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C w : Nat} (wf : ScatterDims.WF ⟨2, ![G, C]⟩ ⟨2, ![N, 1]⟩ ⟨2, ![N, C]⟩ [1] [0] [0] 1)

/-- On the scattered axis the window starts at the index word of the update's row, read signed. -/
theorem rowDims_start0 (j : (⟨2, ![N, C]⟩ : Shape).Idx) (idx : IVec ⟨2, ![N, 1]⟩ w) :
    (rowDims G N C wf).start j idx (0 : Fin 2) = (idx (ix2 (j 0) 0)).toInt := by
  unfold ScatterDims.start
  have h : (0 : Fin 2) ∈ (rowDims G N C wf).scatterDimsToOperandDims := by
    show (0 : Fin 2) ∈ [(0 : Fin 2)]
    exact List.mem_singleton.2 rfl
  rw [dif_pos h]
  congr 2
  funext b
  match b with
  | ⟨0, _⟩ => rfl
  | ⟨1, _⟩ => rfl

/-- On the window axis the start is zero: the index map does not name it. -/
theorem rowDims_start1 (j : (⟨2, ![N, C]⟩ : Shape).Idx) (idx : IVec ⟨2, ![N, 1]⟩ w) :
    (rowDims G N C wf).start j idx (1 : Fin 2) = 0 := by
  unfold ScatterDims.start
  have h : ¬ (1 : Fin 2) ∈ (rowDims G N C wf).scatterDimsToOperandDims := by
    show ¬ (1 : Fin 2) ∈ [(0 : Fin 2)]
    decide
  rw [dif_neg h]

/-- The scattered axis is an inserted one: its window coordinate is zero. -/
theorem rowDims_window0 (j : (⟨2, ![N, C]⟩ : Shape).Idx) :
    (rowDims G N C wf).window j (0 : Fin 2) = 0 := by
  unfold ScatterDims.window
  have h : ¬ (0 : Fin 2) ∈ (rowDims G N C wf).sKept := by
    show ¬ (0 : Fin 2) ∈ [(1 : Fin 2)]
    decide
  rw [dif_neg h]

/-- On the window axis the window coordinate is the update's column. -/
theorem rowDims_window1 (j : (⟨2, ![N, C]⟩ : Shape).Idx) :
    (rowDims G N C wf).window j (1 : Fin 2) = (j 1).val := by
  unfold ScatterDims.window
  have h : (1 : Fin 2) ∈ (rowDims G N C wf).sKept := by
    show (1 : Fin 2) ∈ [(1 : Fin 2)]
    exact List.mem_singleton.2 rfl
  rw [dif_pos h]
  rfl

/-- WHERE AN UPDATE LANDS. Update entry `(n, j')` lands at `(g, j)` exactly when row `n`'s index word, read signed,
    is `g` and the columns agree: the landing row is the signed word itself (the start plus a zero window coordinate),
    kept only when it lies in `[0, G)`, and the landing column is `j'` (a zero start plus the column), always inside. -/
theorem rowDims_resultIdx (n : Fin N) (j' : Fin C) (idx : IVec ⟨2, ![N, 1]⟩ w) (g : Fin G) (j : Fin C) :
    (rowDims G N C wf).resultIdx? (ix2 n j') idx = some (ix2 g j)
      ↔ ((idx (ix2 n 0)).toInt = (g.val : Int) ∧ j' = j) := by
  have hs0 : (rowDims G N C wf).start (ix2 n j') idx (0 : Fin 2) = (idx (ix2 n 0)).toInt :=
    rowDims_start0 wf (ix2 n j') idx
  have hs1 : (rowDims G N C wf).start (ix2 n j') idx (1 : Fin 2) = 0 := rowDims_start1 wf (ix2 n j') idx
  have hw0 : (rowDims G N C wf).window (ix2 n j') (0 : Fin 2) = 0 := rowDims_window0 wf (ix2 n j')
  have hw1 : (rowDims G N C wf).window (ix2 n j') (1 : Fin 2) = j'.val := rowDims_window1 wf (ix2 n j')
  have hg : g.val < G := g.isLt
  have hj' : j'.val < C := j'.isLt
  generalize (idx (ix2 n 0)).toInt = t at hs0 ⊢
  unfold ScatterDims.resultIdx?
  split
  · rename_i h
    have h0 : 0 ≤ (rowDims G N C wf).start (ix2 n j') idx (0 : Fin 2) + (rowDims G N C wf).window (ix2 n j') (0 : Fin 2)
        ∧ (rowDims G N C wf).start (ix2 n j') idx (0 : Fin 2) + (rowDims G N C wf).window (ix2 n j') (0 : Fin 2)
            < ((G : ℕ) : Int) := h 0
    rw [hs0, hw0] at h0
    rw [Option.some.injEq]
    constructor
    · intro hf
      have e0 := congrArg Fin.val (congrFun hf (0 : Fin 2))
      have e1 := congrArg Fin.val (congrFun hf (1 : Fin 2))
      change ((rowDims G N C wf).start (ix2 n j') idx (0 : Fin 2)
        + (rowDims G N C wf).window (ix2 n j') (0 : Fin 2)).toNat = g.val at e0
      change ((rowDims G N C wf).start (ix2 n j') idx (1 : Fin 2)
        + (rowDims G N C wf).window (ix2 n j') (1 : Fin 2)).toNat = j.val at e1
      rw [hs0, hw0] at e0
      rw [hs1, hw1] at e1
      refine ⟨by omega, Fin.ext (by omega)⟩
    · rintro ⟨ht, rfl⟩
      funext a
      match a with
      | ⟨0, _⟩ =>
        apply Fin.ext
        show ((rowDims G N C wf).start (ix2 n j') idx (0 : Fin 2)
          + (rowDims G N C wf).window (ix2 n j') (0 : Fin 2)).toNat = g.val
        rw [hs0, hw0]; omega
      | ⟨1, _⟩ =>
        apply Fin.ext
        show ((rowDims G N C wf).start (ix2 n j') idx (1 : Fin 2)
          + (rowDims G N C wf).window (ix2 n j') (1 : Fin 2)).toNat = j'.val
        rw [hs1, hw1]; omega
  · rename_i h
    constructor
    · intro hf; cases hf
    · rintro ⟨ht, rfl⟩
      exfalso
      apply h
      intro a
      match a with
      | ⟨0, _⟩ =>
        show 0 ≤ (rowDims G N C wf).start (ix2 n j') idx (0 : Fin 2) + (rowDims G N C wf).window (ix2 n j') (0 : Fin 2)
          ∧ (rowDims G N C wf).start (ix2 n j') idx (0 : Fin 2) + (rowDims G N C wf).window (ix2 n j') (0 : Fin 2)
              < ((G : ℕ) : Int)
        rw [hs0, hw0]; omega
      | ⟨1, _⟩ =>
        show 0 ≤ (rowDims G N C wf).start (ix2 n j') idx (1 : Fin 2) + (rowDims G N C wf).window (ix2 n j') (1 : Fin 2)
          ∧ (rowDims G N C wf).start (ix2 n j') idx (1 : Fin 2) + (rowDims G N C wf).window (ix2 n j') (1 : Fin 2)
              < ((C : ℕ) : Int)
        rw [hs1, hw1]; omega

/-- A ROW SCATTER-ADD IS A SUM PER SEGMENT. At `(g, j)` the result is the operand's entry plus the sum of `upd (n, j)`
    over the rows `n` whose index word, read signed, is `g`: the sum over the update entries landing at `(g, j)`, split
    into rows and columns, keeps in row `n` only column `j`, and only when the row's word is `g`. -/
theorem hostScatterAdd_rowDims_apply (x : (⟨2, ![G, C]⟩ : Shape).Idx → EReal) (idx : IVec ⟨2, ![N, 1]⟩ w)
    (upd : (⟨2, ![N, C]⟩ : Shape).Idx → EReal) (g : Fin G) (j : Fin C) :
    Ideal.hostScatterAdd (rowDims G N C wf) x idx upd (ix2 g j)
      = x (ix2 g j) + ∑ n : Fin N, if (idx (ix2 n 0)).toInt = (g.val : Int) then upd (ix2 n j) else 0 := by
  unfold Ideal.hostScatterAdd
  congr 1
  rw [Finset.sum_filter, sum_idx2]
  refine Finset.sum_congr rfl fun n _ => ?_
  simp only [rowDims_resultIdx wf]
  by_cases ht : (idx (ix2 n 0)).toInt = (g.val : Int)
  · simp only [ht, true_and, if_true]
    rw [Finset.sum_ite_eq' Finset.univ j (fun j' => upd (ix2 n j'))]
    simp only [Finset.mem_univ, if_true]
  · simp only [ht, false_and, if_false]
    exact Finset.sum_const_zero

end Cert.LibPoolScatter

end
-- ==== Proof.LibSegCount.lean ====
/-
  A vector scatter-add is a sum per segment.

  A host scatter-add whose updates are the `N` entries of a vector, entry `n` added into entry `idx n` of an
  operand vector of length `G` (the update has no window axis, the operand's one axis is scattered and inserted, the
  index vector lies on axis 1 of the `N × 1` indices), leaves at `g`, at the exact values, the operand's entry plus
  the sum of `upd n` over the entries `n` whose index word, read signed, is `g`. Update entry `n` lands at its index
  word read signed when that lies in `[0, G)` and nowhere otherwise. So the update entries landing at `g` are the
  entries whose index word is `g`, and the filtered sum over the update indices is a conditional sum over `n`.
  With every update equal to one this counts the entries of each segment.
-/
import Idealize.ShloMosaic.PureOps.Ideal
import Idealize.ShloMosaic.Lib.ValueIdx

noncomputable section

namespace Cert.LibSegCount

open Idealize.ShloMosaic Idealize.ShloMosaic.ValueIdx

/-- The dimension numbers of a vector scatter: updates of length `N` into an operand of length `G`, indices `N × 1`;
    the update has no window axis, the operand's axis 0 is scattered and inserted, the index vector lies on axis 1. -/
abbrev vecDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable {G N w : Nat} (wf : ScatterDims.WF ⟨1, ![G]⟩ ⟨2, ![N, 1]⟩ ⟨1, ![N]⟩ [] [0] [0] 1)

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- On the operand's axis the window starts at the index word of the update's entry, read signed. -/
theorem vecDims_start0 (j : (⟨1, ![N]⟩ : Shape).Idx) (idx : IVec ⟨2, ![N, 1]⟩ w) :
    (vecDims G N wf).start j idx (0 : Fin 1) = (idx (ix2 (j 0) 0)).toInt := by
  unfold ScatterDims.start
  have h : (0 : Fin 1) ∈ (vecDims G N wf).scatterDimsToOperandDims := by
    show (0 : Fin 1) ∈ [(0 : Fin 1)]
    exact List.mem_singleton.2 rfl
  rw [dif_pos h]
  congr 2
  funext b
  match b with
  | ⟨0, _⟩ => rfl
  | ⟨1, _⟩ => rfl

/-- The operand's axis is an inserted one: its window coordinate is zero. -/
theorem vecDims_window0 (j : (⟨1, ![N]⟩ : Shape).Idx) :
    (vecDims G N wf).window j (0 : Fin 1) = 0 := by
  unfold ScatterDims.window
  have h : ¬ (0 : Fin 1) ∈ (vecDims G N wf).sKept := by
    show ¬ (0 : Fin 1) ∈ ([] : List (Fin 1))
    exact List.not_mem_nil
  rw [dif_neg h]

/-- WHERE AN UPDATE LANDS. Update entry `n` lands at `g` exactly when its index word, read signed, is `g`: the landing
    place is the signed word itself (the start plus a zero window coordinate), kept only when it lies in `[0, G)`. -/
theorem vecDims_resultIdx (n : Fin N) (idx : IVec ⟨2, ![N, 1]⟩ w) (g : Fin G) :
    (vecDims G N wf).resultIdx? (ix1 n) idx = some (ix1 g) ↔ (idx (ix2 n 0)).toInt = (g.val : Int) := by
  have hs0 : (vecDims G N wf).start (ix1 n) idx (0 : Fin 1) = (idx (ix2 n 0)).toInt :=
    vecDims_start0 wf (ix1 n) idx
  have hw0 : (vecDims G N wf).window (ix1 n) (0 : Fin 1) = 0 := vecDims_window0 wf (ix1 n)
  have hg : g.val < G := g.isLt
  generalize (idx (ix2 n 0)).toInt = t at hs0 ⊢
  unfold ScatterDims.resultIdx?
  split
  · rename_i h
    have h0 : 0 ≤ (vecDims G N wf).start (ix1 n) idx (0 : Fin 1) + (vecDims G N wf).window (ix1 n) (0 : Fin 1)
        ∧ (vecDims G N wf).start (ix1 n) idx (0 : Fin 1) + (vecDims G N wf).window (ix1 n) (0 : Fin 1)
            < ((G : ℕ) : Int) := h 0
    rw [hs0, hw0] at h0
    rw [Option.some.injEq]
    constructor
    · intro hf
      have e0 := congrArg Fin.val (congrFun hf (0 : Fin 1))
      change ((vecDims G N wf).start (ix1 n) idx (0 : Fin 1)
        + (vecDims G N wf).window (ix1 n) (0 : Fin 1)).toNat = g.val at e0
      rw [hs0, hw0] at e0
      omega
    · intro ht
      funext a
      match a with
      | ⟨0, _⟩ =>
        apply Fin.ext
        show ((vecDims G N wf).start (ix1 n) idx (0 : Fin 1)
          + (vecDims G N wf).window (ix1 n) (0 : Fin 1)).toNat = g.val
        rw [hs0, hw0]; omega
  · rename_i h
    constructor
    · intro hf; cases hf
    · intro ht
      exfalso
      apply h
      intro a
      match a with
      | ⟨0, _⟩ =>
        show 0 ≤ (vecDims G N wf).start (ix1 n) idx (0 : Fin 1) + (vecDims G N wf).window (ix1 n) (0 : Fin 1)
          ∧ (vecDims G N wf).start (ix1 n) idx (0 : Fin 1) + (vecDims G N wf).window (ix1 n) (0 : Fin 1)
              < ((G : ℕ) : Int)
        rw [hs0, hw0]; omega

/-- A VECTOR SCATTER-ADD IS A SUM PER SEGMENT. At `g` the result is the operand's entry plus the sum of `upd n` over
    the entries `n` whose index word, read signed, is `g`: the sum over the update entries landing at `g`. -/
theorem hostScatterAdd_vecDims_apply (x : (⟨1, ![G]⟩ : Shape).Idx → EReal) (idx : IVec ⟨2, ![N, 1]⟩ w)
    (upd : (⟨1, ![N]⟩ : Shape).Idx → EReal) (g : Fin G) :
    Ideal.hostScatterAdd (vecDims G N wf) x idx upd (ix1 g)
      = x (ix1 g) + ∑ n : Fin N, if (idx (ix2 n 0)).toInt = (g.val : Int) then upd (ix1 n) else 0 := by
  unfold Ideal.hostScatterAdd
  congr 1
  rw [Finset.sum_filter, sum_idx1]
  refine Finset.sum_congr rfl fun n _ => ?_
  simp only [vecDims_resultIdx wf]

end Cert.LibSegCount

end
-- ==== Proof.RefSegments.lean ====
/-
  The reference's two segment sums, read at an index at the exact values.

  The reference computes a hidden layer `h n j = max (∑ k, x n k * w k j + b j) 0` for each of 262144 rows, adds the
  rows of `h` into a zero 512 × 512 array by the rows' segment words, and adds 262144 ones into a zero vector of
  length 512 by the same words. At `(b, j)` the first is the sum of `h n j` over the rows whose word, read signed, is
  `b`; at `b` the second is the number of such rows, as a sum of ones.
-/
import proofs.«422706_j6803228197419_1_alg».proof.Proof.Gen.ReferenceIdeal.Read
import proofs.«422706_j6803228197419_1_alg».proof.Proof.LibPoolScatter
import proofs.«422706_j6803228197419_1_alg».proof.Proof.LibSegCount
import proofs.«422706_j6803228197419_1_alg».proof.Proof.BagSpec

noncomputable section

namespace Cert.ReferenceIdeal.RefValue

open Cert.ReferenceIdeal Cert.ReferenceIdeal.Gen Idealize.ShloMosaic Idealize.ShloMosaic.ValueIdx

/-- The single-precision word `0x3F800000` is the real number one. -/
theorem ofBits_one_f32 : Ideal.ofBits .f32 0x3F800000#32 = 1 := by
  simp [Ideal.ofBits, Ideal.ieee, -EReal.coe_mul]; norm_num

/-- An entry of the reference's hidden layer is the specification's: the dot product of row `n` with weight column
    `j`, plus the bias of column `j`, clamped below at zero. -/
theorem ref_hidden_apply (x0 : (⟨S262144x1024, .f32⟩ : BufTy).Contents (Elt Ideal))
    (x2 : (⟨S1024x512, .f32⟩ : BufTy).Contents (Elt Ideal)) (x3 : (⟨S512, .f32⟩ : BufTy).Contents (Elt Ideal))
    (n : Fin 262144) (j : Fin 512) :
    Cert.ReferenceIdeal.Read.val_main_v4 (F := Ideal) x0 x2 x3 (ix2 n j)
      = Cert.BagSpec.hidden (fun k => x0 (ix2 n k)) (fun k => x2 (ix2 k j)) (x3 (ix1 j)) := by
  rw [Read.val_main_v4_apply, Read.val_main_v3_apply, Read.val_main_v0_apply, Read.val_main_v2_apply,
    Read.val_main_v1_apply, Read.val_main_call0_v0_apply, Read.val_main_call0_cst_apply]
  have el : ∀ k : Fin 1024, Read.lidx_main_v0 (ix2 n j) k = ix2 n k := fun k => funext fun a =>
    match a with
    | ⟨0, _⟩ => rfl
    | ⟨1, _⟩ => rfl
  have er : ∀ k : Fin 1024, Read.ridx_main_v0 (ix2 n j) k = ix2 k j := fun k => funext fun a =>
    match a with
    | ⟨0, _⟩ => rfl
    | ⟨1, _⟩ => rfl
  have eb : Read.idx_main_v1 (Read.idx_main_v2 (ix2 n j)) = ix1 j := funext fun a =>
    match a with
    | ⟨0, _⟩ => rfl
  simp only [el, er, eb]
  show max ((∑ k : Fin 1024, x0 (ix2 n k) * x2 (ix2 k j)) + x3 (ix1 j)) (Ideal.ofBits .f32 0x00000000#32) = _
  rw [Ideal.ofBits_zero_f32]
  rfl

/-- THE SEGMENT SUMS. At `(b, j)` the reference's first scatter-add is the sum of the hidden entries `h n j` over the
    rows `n` whose segment word, read signed, is `b`: the operand is zero, the index array is the words as a column,
    and the updates are the rows of the hidden layer. -/
theorem ref_sums_apply (x0 : (⟨S262144x1024, .f32⟩ : BufTy).Contents (Elt Ideal)) (x1 : (⟨S262144, .i32⟩ : BufTy).Contents (Elt Ideal)) (x2 : (⟨S1024x512, .f32⟩ : BufTy).Contents (Elt Ideal)) (x3 : (⟨S512, .f32⟩ : BufTy).Contents (Elt Ideal)) (b j : Fin 512) :
    Cert.ReferenceIdeal.Read.val_main_v7 (F := Ideal) x0 x1 x2 x3 (ix2 b j) = ∑ n : Fin 262144, if (x1 (ix1 n)).toInt = (b.val : Int) then Cert.BagSpec.hidden (fun k => x0 (ix2 n k)) (fun k => x2 (ix2 k j)) (x3 (ix1 j)) else 0 := by
  unfold Read.val_main_v7
  change Ideal.hostScatterAdd (Cert.LibPoolScatter.rowDims 512 262144 512 _) (Read.val_main_v5 (F := Ideal))
    (Read.val_main_v6 (F := Ideal) x1) (Read.val_main_v4 (F := Ideal) x0 x2 x3) (ix2 b j) = _
  rw [Cert.LibPoolScatter.hostScatterAdd_rowDims_apply, Read.val_main_v5_apply, Read.val_main_cst_apply]
  change Ideal.ofBits .f32 0x00000000#32 + _ = _
  rw [Ideal.ofBits_zero_f32, zero_add]
  refine Finset.sum_congr rfl fun n _ => ?_
  have ei : Read.idx_main_v6 (ix2 n (0 : Fin 1)) = ix1 n := funext fun a =>
    match a with
    | ⟨0, _⟩ => rfl
  rw [Read.val_main_v6_apply, ei, ref_hidden_apply]

/-- THE SEGMENT COUNTS. At `b` the reference's second scatter-add is the number of rows whose segment word, read
    signed, is `b`, as a sum of ones: the operand is zero, the index array is the words as a column, and every update
    is one. -/
theorem ref_counts_apply (x1 : (⟨S262144, .i32⟩ : BufTy).Contents (Elt Ideal)) (b : Fin 512) :
    Cert.ReferenceIdeal.Read.val_main_v11 (F := Ideal) x1 (ix1 b) = ∑ n : Fin 262144, if (x1 (ix1 n)).toInt = (b.val : Int) then (1 : EReal) else 0 := by
  unfold Read.val_main_v11
  change Ideal.hostScatterAdd (Cert.LibSegCount.vecDims 512 262144 _) (Read.val_main_v9 (F := Ideal))
    (Read.val_main_v10 (F := Ideal) x1) (Read.val_main_v8 (F := Ideal)) (ix1 b) = _
  rw [Cert.LibSegCount.hostScatterAdd_vecDims_apply, Read.val_main_v9_apply, Read.val_main_cst_1_apply]
  change Ideal.ofBits .f32 0x00000000#32 + _ = _
  rw [Ideal.ofBits_zero_f32, zero_add]
  refine Finset.sum_congr rfl fun n _ => ?_
  have ei : Read.idx_main_v10 (ix2 n (0 : Fin 1)) = ix1 n := funext fun a =>
    match a with
    | ⟨0, _⟩ => rfl
  rw [Read.val_main_v10_apply, ei, Read.val_main_v8_apply, Read.val_main_cst_0_apply]
  change (if _ then Ideal.ofBits .f32 0x3F800000#32 else 0) = _
  rw [ofBits_one_f32]

end Cert.ReferenceIdeal.RefValue

end
-- ==== Proof.Bridge.lean ====
/-
  The kernel's result is the reference's.

  Kernel: the summed sums at `(b, j)` are zero plus, over the two halves, zero plus the sum over the half's 64 tiles
  of the tiles' addends, each a sum over the tile's 2048 rows; regrouped, that is the sum over all 262144 rows of
  the row's contribution to segment `b` in column `j`.  Reference: the scatter-add of the hidden rows into a zero
  operand, read at `(b, j)`, is the same sum.  The counts agree in the same way, the reference's vector of counts
  viewed as a column.  The two programs then apply the same operations to equal arrays.
-/
import proofs.«422706_j6803228197419_1_alg».proof.Proof.Fold
import proofs.«422706_j6803228197419_1_alg».proof.Proof.Tail
import proofs.«422706_j6803228197419_1_alg».proof.Proof.HalvesSum
import proofs.«422706_j6803228197419_1_alg».proof.Proof.Regroup
import proofs.«422706_j6803228197419_1_alg».proof.Proof.RefSegments
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.Bridge

open Cert.KernelIdeal.Gen

variable (m : (ℓ : Loc Cert.KernelIdeal.nD Cert.KernelIdeal.τ Cert.KernelIdeal.sig) → Buf (Elt Ideal) ℓ)

/-- A function of the rows read at each row's number is the function. -/
theorem sum_rowAt (f : Fin 262144 → EReal) : ∑ n : Fin 262144, Cert.BagSpec.rowAt f n.val = ∑ n : Fin 262144, f n :=
  Finset.sum_congr rfl fun n _ => Cert.BagSpec.rowAt_of_lt f n.val n.isLt

/-- The kernel's summed sums at `(b, j)`: the sum over all rows of the rows' contributions. -/
theorem kernel_sums (c : Dev Cert.KernelIdeal.nD) (b j : Fin 512) :
    Host.reduceAdd (F := Ideal) (φ := .f32) (Cert.KernelIdeal.Outputs.sumsArr m c) (constant Cert.KernelIdeal.S_ .f32 0x00000000#32)
        Cert.KernelIdeal.Facts₀.reducesTo_S2x512x512_S512x512_d0 Cert.KernelIdeal.Facts₀.h_S_ (ix2 b j)
      = ∑ n : Fin 262144, Cert.KernelIdeal.Fold.rowSum m c b j n := by
  rw [Cert.KernelIdeal.HalvesSum.sums_halves_apply]
  have hq : ∀ q : Fin 2, Cert.KernelIdeal.Outputs.sumsArr m c (ix3 q b j)
      = 0 + ∑ s ∈ Finset.range 64, Cert.KernelIdeal.Fold.tileSum m c (64 * q.val + s) (b, j) :=
    fun q => Cert.KernelIdeal.Fold.sumsHalf_apply m c q b j
  simp only [hq, constant_apply, Ideal.ofBits_zero_f32, zero_add]
  unfold Cert.KernelIdeal.Fold.tileSum
  exact (Cert.BagSpec.sum_halves_tiles_rows fun n => Cert.BagSpec.rowAt (Cert.KernelIdeal.Fold.rowSum m c b j) n).trans
    (sum_rowAt _)

/-- The kernel's summed counts at `b`: the number of rows of segment `b`, as a sum of ones. -/
theorem kernel_counts (c : Dev Cert.KernelIdeal.nD) (b : Fin 512) :
    Host.reduceAdd (F := Ideal) (φ := .f32) (Cert.KernelIdeal.Outputs.countsArr m c) (constant Cert.KernelIdeal.S_ .f32 0x00000000#32)
        Cert.KernelIdeal.Facts₀.reducesTo_S2x512x1_S512x1_d0 Cert.KernelIdeal.Facts₀.h_S_ (ix2 b 0)
      = ∑ n : Fin 262144, Cert.KernelIdeal.Fold.rowCnt m c b n := by
  rw [Cert.KernelIdeal.HalvesSum.counts_halves_apply]
  have hq : ∀ q : Fin 2, Cert.KernelIdeal.Outputs.countsArr m c (ix3 q b 0)
      = 0 + ∑ s ∈ Finset.range 64, Cert.KernelIdeal.Fold.tileCnt m c (64 * q.val + s) b :=
    fun q => Cert.KernelIdeal.Fold.countsHalf_apply m c q b
  simp only [hq, constant_apply, Ideal.ofBits_zero_f32, zero_add]
  unfold Cert.KernelIdeal.Fold.tileCnt
  exact (Cert.BagSpec.sum_halves_tiles_rows fun n => Cert.BagSpec.rowAt (Cert.KernelIdeal.Fold.rowCnt m c b) n).trans
    (sum_rowAt _)

/-- The kernel's summed sums are the reference's per-segment sums. -/
theorem sums_eq (c : Dev Cert.KernelIdeal.nD) :
    Host.reduceAdd (F := Ideal) (φ := .f32) (Cert.KernelIdeal.Outputs.sumsArr m c) (constant Cert.KernelIdeal.S_ .f32 0x00000000#32)
        Cert.KernelIdeal.Facts₀.reducesTo_S2x512x512_S512x512_d0 Cert.KernelIdeal.Facts₀.h_S_
      = Cert.ReferenceIdeal.Read.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  obtain ⟨b, j, rfl⟩ : ∃ (b : Fin 512) (j : Fin 512), i = ix2 b j := ⟨i 0, i 1, eq_ix2 i⟩
  rw [kernel_sums, Cert.ReferenceIdeal.RefValue.ref_sums_apply]
  rfl

/-- The kernel's summed counts are the reference's per-segment counts viewed as a column. -/
theorem counts_eq (c : Dev Cert.KernelIdeal.nD) :
    Host.reduceAdd (F := Ideal) (φ := .f32) (Cert.KernelIdeal.Outputs.countsArr m c) (constant Cert.KernelIdeal.S_ .f32 0x00000000#32)
        Cert.KernelIdeal.Facts₀.reducesTo_S2x512x1_S512x1_d0 Cert.KernelIdeal.Facts₀.h_S_
      = Cert.ReferenceIdeal.Read.val_main_v12 (F := Ideal) (m ((c.tc : Thread Cert.KernelIdeal.nD Cert.KernelIdeal.τ).loc Cert.KernelIdeal.main_arg1)) := by
  funext i
  obtain ⟨b, u, rfl⟩ : ∃ (b : Fin 512) (u : Fin 1), i = ix2 b u := ⟨i 0, i 1, eq_ix2 i⟩
  obtain rfl : u = 0 := Subsingleton.elim _ _
  have e : Cert.ReferenceIdeal.Read.idx_main_v12 (ix2 b (0 : Fin 1)) = ix1 b := funext fun a => match a with | ⟨0, _⟩ => rfl
  rw [kernel_counts, Cert.ReferenceIdeal.Read.val_main_v12_apply, e, Cert.ReferenceIdeal.RefValue.ref_counts_apply]
  rfl

/-- THE RESULTS AGREE: the kernel's tail of its two output arrays is the reference's last stage of the same
    arguments. -/
theorem result_eq (c : Dev Cert.KernelIdeal.nD) :
    Cert.KernelIdeal.Tail.tailOf (Cert.KernelIdeal.Outputs.sumsArr m c) (Cert.KernelIdeal.Outputs.countsArr m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  unfold Cert.KernelIdeal.Tail.tailOf
  rw [sums_eq, counts_eq]
  rfl

end Cert.Bridge

end
-- ==== Proof.lean ====
/-
  Bag pooling of a ReLU layer: the kernel and its reference compute one function.

  Inputs: `x` (262144 × 1024), segment words `ids` (262144), `W1` (1024 × 512), `b1` (512), `W2` (512 × 2), `b2` (2).
  Both programs form the hidden rows `h n = relu (x n · W1 + b1)`, sum them per segment `g = ids n` (512 segments)
  together with the segment's row count, divide the sums by the counts, and apply `· W2 + b2`.

  The kernel walks the rows in 2 halves of 64 tiles of 2048 rows.  For a tile it builds the 512 × 2048 matrix whose
  entry `(g, r)` is one when row `r`'s word is `g` and zero otherwise; the tile's per-segment sums are that matrix
  times the tile's hidden rows and its per-segment counts the matrix's row sums; both are accumulated over the
  tiles of a half and written out when the half ends; the host adds the two halves.  The reference scatters the
  hidden rows, and ones, into zero arrays at the rows' words.  A word that names no segment matches no row of the
  one-hot matrix and lands outside the scatter's operand: it contributes to neither.

  Over the extended reals a format change is the identity, a matrix product is the sum of products, `1 · h = h`
  and `0 · h = 0` for every `h`, and sums may be regrouped freely; so the kernel's sums and counts are, entry by
  entry, the sums over all rows that the scatters compute (Bridge.lean), and the remaining operations are the
  same on both sides.  No finiteness of the inputs is used.

  The three programs' frames are the generated ones (the reference's its generated run with the result dropped);
  the idealization rewrote nothing, so its soundness claim is trivial.
-/
import proofs.«422706_j6803228197419_1_alg».proof.Defs
import proofs.«422706_j6803228197419_1_alg».proof.Proof.Gen.Kernel
import proofs.«422706_j6803228197419_1_alg».proof.Proof.Gen.Kernel.Skeleton
import proofs.«422706_j6803228197419_1_alg».proof.Proof.Gen.Kernel.Launch
import proofs.«422706_j6803228197419_1_alg».proof.Proof.Gen.Kernel.Points
import proofs.«422706_j6803228197419_1_alg».proof.Proof.Gen.Kernel.Frame
import proofs.«422706_j6803228197419_1_alg».proof.Proof.Gen.KernelIdeal
import proofs.«422706_j6803228197419_1_alg».proof.Proof.Gen.KernelIdeal.Skeleton
import proofs.«422706_j6803228197419_1_alg».proof.Proof.Gen.KernelIdeal.Launch
import proofs.«422706_j6803228197419_1_alg».proof.Proof.Gen.KernelIdeal.Points
import proofs.«422706_j6803228197419_1_alg».proof.Proof.Gen.KernelIdeal.Frame
import proofs.«422706_j6803228197419_1_alg».proof.Proof.Gen.ReferenceIdeal
import proofs.«422706_j6803228197419_1_alg».proof.Proof.Gen.Pre_finite_inputs
import proofs.«422706_j6803228197419_1_alg».proof.Proof.Gen.ReferenceIdeal.Run
import proofs.«422706_j6803228197419_1_alg».proof.Proof.Gen.ReferenceIdeal.Read
import proofs.«422706_j6803228197419_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result: the kernel's
    run ends at its tail of the two output arrays, the reference's at its last stage, and those are equal. -/
theorem algebraic : Cert.algebraic_KernelIdeal_ReferenceIdeal := by
  intro m ρ m' ρ' _ hagree
  refine ⟨_, Cert.KernelIdeal.Tail.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  rw [Cert.ReferenceIdeal.Read.val_main_v18_eq]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
